-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2048x1024x7 : Shape := ⟨4, ![3, 2048, 1024, 7]⟩
abbrev S2048x1024x3 : Shape := ⟨3, ![2048, 1024, 3]⟩
abbrev S2048x1024x7 : Shape := ⟨3, ![2048, 1024, 7]⟩
abbrev S2048x1024 : Shape := ⟨2, ![2048, 1024]⟩
abbrev S_ : Shape := ⟨0, ![]⟩

class Facts : Prop where
  bcast_S_S3x2048x1024x7 : S_.BroadcastsInDim S3x2048x1024x7 (![] : Fin 0 → Fin S3x2048x1024x7.rank)
  reducesTo_S3x2048x1024x7_S_d0_1_2_3 : S3x2048x1024x7.ReducesTo [0, 1, 2, 3] S_
  h_S_ : 0 < S_.numel
  bcast_S_S2048x1024x7 : S_.BroadcastsInDim S2048x1024x7 (![] : Fin 0 → Fin S2048x1024x7.rank)
  reducesTo_S2048x1024x7_S_d0_1_2 : S2048x1024x7.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S2048x1024x3 : S_.BroadcastsInDim S2048x1024x3 (![] : Fin 0 → Fin S2048x1024x3.rank)
  reducesTo_S2048x1024x3_S_d0_1_2 : S2048x1024x3.ReducesTo [0, 1, 2] S_

variable [Facts]

def fn_part1 {F : FTy → Type} [FloatOps F] (main_arg1 : IVec S2048x1024x3 32) (main_v13 : IVec S_ 1) (main_v15 : IVec S2048x1024x3 1) (main_c_5 : IVec S_ 1) : IVec S_ 1 :=
  let main_v16 : IVec S_ 1 := (fun x v => Host.reduce IntOp.andi x v reducesTo_S2048x1024x3_S_d0_1_2 h_S_) main_v15 main_c_5
  let main_v17 : IVec S_ 1 := andi main_v13 main_v16
  let main_c_6 : IVec S_ 32 := constantI S_ 32 6#32
  let main_v18 : IVec S2048x1024x3 32 := broadcastInDim S2048x1024x3 ![] bcast_S_S2048x1024x3 main_c_6
  let main_v19 : IVec S2048x1024x3 1 := cmpi .sle main_arg1 main_v18
  let main_c_7 : IVec S_ 1 := constantI S_ 1 1#1
  let main_v20 : IVec S_ 1 := (fun x v => Host.reduce IntOp.andi x v reducesTo_S2048x1024x3_S_d0_1_2 h_S_) main_v19 main_c_7
  let main_v21 : IVec S_ 1 := andi main_v17 main_v20
  main_v21

def fn {F : FTy → Type} [FloatOps F] (main_arg0 : FVec F S3x2048x1024x7 .f32) (main_arg1 : IVec S2048x1024x3 32) (main_arg2 : FVec F S2048x1024x7 .f32) (main_arg3 : FVec F S2048x1024 .f32) : IVec S_ 1 :=
  let main_v0 : FVec F S3x2048x1024x7 .f32 := Host.absf main_arg0
  let main_cst : FVec F S_ .f32 := constant S_ .f32 0x7F800000#32
  let main_v1 : FVec F S3x2048x1024x7 .f32 := broadcastInDim S3x2048x1024x7 ![] bcast_S_S3x2048x1024x7 main_cst
  let main_v2 : IVec S3x2048x1024x7 1 := cmpf .olt main_v0 main_v1
  let main_c : IVec S_ 1 := constantI S_ 1 1#1
  let main_v3 : IVec S_ 1 := (fun x v => Host.reduce IntOp.andi x v reducesTo_S3x2048x1024x7_S_d0_1_2_3 h_S_) main_v2 main_c
  let main_v4 : FVec F S2048x1024x7 .f32 := Host.absf main_arg2
  let main_cst_0 : FVec F S_ .f32 := constant S_ .f32 0x7F800000#32
  let main_v5 : FVec F S2048x1024x7 .f32 := broadcastInDim S2048x1024x7 ![] bcast_S_S2048x1024x7 main_cst_0
  let main_v6 : IVec S2048x1024x7 1 := cmpf .olt main_v4 main_v5
  let main_c_1 : IVec S_ 1 := constantI S_ 1 1#1
  let main_v7 : IVec S_ 1 := (fun x v => Host.reduce IntOp.andi x v reducesTo_S2048x1024x7_S_d0_1_2 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_c_4 : IVec S_ 32 := constantI S_ 32 0#32
  let main_v14 : IVec S2048x1024x3 32 := broadcastInDim S2048x1024x3 ![] bcast_S_S2048x1024x3 main_c_4
  let main_v15 : IVec S2048x1024x3 1 := cmpi .sge main_arg1 main_v14
  let main_c_5 : IVec S_ 1 := constantI S_ 1 1#1
  fn_part1 (F := F) main_arg1 main_v13 main_v15 main_c_5
-- ==== Kernel.lean ====
abbrev S3x2048x1024x7 : Shape := ⟨4, ![3, 2048, 1024, 7]⟩
abbrev S2048x1024x3 : Shape := ⟨3, ![2048, 1024, 3]⟩
abbrev S2048x1024x7 : Shape := ⟨3, ![2048, 1024, 7]⟩
abbrev S2048x1024 : Shape := ⟨2, ![2048, 1024]⟩
abbrev S3x2048x7x1024 : Shape := ⟨4, ![3, 2048, 7, 1024]⟩
abbrev S2048x7x1024 : Shape := ⟨3, ![2048, 7, 1024]⟩
abbrev S_ : Shape := ⟨0, ![]⟩
abbrev S3x2048x1024 : Shape := ⟨3, ![3, 2048, 1024]⟩
abbrev S2x3x2048x1023 : Shape := ⟨4, ![2, 3, 2048, 1023]⟩
abbrev S3x64x7x1024 : Shape := ⟨4, ![3, 64, 7, 1024]⟩
abbrev S64x7x1024 : Shape := ⟨3, ![64, 7, 1024]⟩
abbrev S3x64x1024 : Shape := ⟨3, ![3, 64, 1024]⟩
abbrev S64x1024 : Shape := ⟨2, ![64, 1024]⟩
abbrev S2x3x64x1023 : Shape := ⟨4, ![2, 3, 64, 1023]⟩
abbrev S1x64x7x1024 : Shape := ⟨4, ![1, 64, 7, 1024]⟩
abbrev S3x64x1x1024 : Shape := ⟨4, ![3, 64, 1, 1024]⟩
abbrev S3x64x1023 : Shape := ⟨3, ![3, 64, 1023]⟩
abbrev S64x1023 : Shape := ⟨2, ![64, 1023]⟩
abbrev S1x64x1023 : Shape := ⟨3, ![1, 64, 1023]⟩
abbrev S1x3x64x1023 : Shape := ⟨4, ![1, 3, 64, 1023]⟩

abbrev nBuf : Space → Nat
  | .hbm => 16
  | .vmem => 10
  | .smem => 0
  | _ => 0

abbrev bufTy : (tb : Table) → Fin (tcTables nBuf tb) → BufTy
  | .hbm, ⟨0, _⟩ => ⟨S3x2048x1024x7, .f32⟩
  | .hbm, ⟨1, _⟩ => ⟨S2048x1024x3, .i32⟩
  | .hbm, ⟨2, _⟩ => ⟨S2048x1024x7, .f32⟩
  | .hbm, ⟨3, _⟩ => ⟨S2048x1024, .f32⟩
  | .hbm, ⟨4, _⟩ => ⟨S3x2048x7x1024, .f32⟩
  | .hbm, ⟨5, _⟩ => ⟨S2048x7x1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2048x1024x3, .i32⟩
  | .hbm, ⟨10, _⟩ => ⟨S2048x1024x3, .i32⟩
  | .hbm, ⟨11, _⟩ => ⟨S_, .i32⟩
  | .hbm, ⟨12, _⟩ => ⟨S2048x1024x3, .i32⟩
  | .hbm, ⟨13, _⟩ => ⟨S2048x1024x3, .i32⟩
  | .hbm, ⟨14, _⟩ => ⟨S3x2048x1024, .i32⟩
  | .hbm, ⟨15, _⟩ => ⟨S2x3x2048x1023, .f32⟩
  | .local _ .vmem, ⟨0, _⟩ => ⟨S3x64x7x1024, .f32⟩
  | .local _ .vmem, ⟨1, _⟩ => ⟨S3x64x7x1024, .f32⟩
  | .local _ .vmem, ⟨2, _⟩ => ⟨S64x7x1024, .f32⟩
  | .local _ .vmem, ⟨3, _⟩ => ⟨S64x7x1024, .f32⟩
  | .local _ .vmem, ⟨4, _⟩ => ⟨S3x64x1024, .i32⟩
  | .local _ .vmem, ⟨5, _⟩ => ⟨S3x64x1024, .i32⟩
  | .local _ .vmem, ⟨6, _⟩ => ⟨S64x1024, .f32⟩
  | .local _ .vmem, ⟨7, _⟩ => ⟨S64x1024, .f32⟩
  | .local _ .vmem, ⟨8, _⟩ => ⟨S2x3x64x1023, .f32⟩
  | .local _ .vmem, ⟨9, _⟩ => ⟨S2x3x64x1023, .f32⟩
  | _, _ => ⟨S3x2048x1024x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S3x64x7x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x3x64x1023 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S3x2048x1024x7_S3x2048x7x1024_0_1_3_2 : S3x2048x1024x7.Transposes [0, 1, 3, 2] S3x2048x7x1024
  transposes_S2048x1024x7_S2048x7x1024_0_2_1 : S2048x1024x7.Transposes [0, 2, 1] S2048x7x1024
  bcast_S_S2048x1024x3 : S_.BroadcastsInDim S2048x1024x3 (![] : Fin 0 → Fin S2048x1024x3.rank)
  transposes_S2048x1024x3_S3x2048x1024_2_0_1 : S2048x1024x3.Transposes [2, 0, 1] S3x2048x1024
  inb_S3x64x7x1024_S3x64x7x1024_0_0_0_0 : ∀ a, (![0, 0, 0, 0] : Fin 4 → Nat) a + S3x64x7x1024.size a ≤ S3x64x7x1024.size a
  h_S3x64x7x1024 : 0 < S3x64x7x1024.numel
  shapeCasts_S3x64x7x1024_S3x64x7x1024 : S3x64x7x1024.ShapeCasts S3x64x7x1024
  inb_S64x7x1024_S64x7x1024_0_0_0 : ∀ a, (![0, 0, 0] : Fin 3 → Nat) a + S64x7x1024.size a ≤ S64x7x1024.size a
  h_S64x7x1024 : 0 < S64x7x1024.numel
  shapeCasts_S64x7x1024_S64x7x1024 : S64x7x1024.ShapeCasts S64x7x1024
  inb_S3x64x1024_S3x64x1024_0_0_0 : ∀ a, (![0, 0, 0] : Fin 3 → Nat) a + S3x64x1024.size a ≤ S3x64x1024.size a
  h_S3x64x1024 : 0 < S3x64x1024.numel
  shapeCasts_S3x64x1024_S3x64x1024 : S3x64x1024.ShapeCasts S3x64x1024
  inb_S64x1024_S64x1024_0_0 : ∀ a, (![0, 0] : Fin 2 → Nat) a + S64x1024.size a ≤ S64x1024.size a
  h_S64x1024 : 0 < S64x1024.numel
  shapeCasts_S64x7x1024_S1x64x7x1024 : S64x7x1024.ShapeCasts S1x64x7x1024
  broadcasts_S1x64x7x1024_S3x64x7x1024 : S1x64x7x1024.Broadcasts S3x64x7x1024
  iota_S3x64x7x1024_d2_w32 : S3x64x7x1024.Iotas .tc 32 [2]
  shapeCasts_S3x64x1024_S3x64x1x1024 : S3x64x1024.ShapeCasts S3x64x1x1024
  broadcasts_S3x64x1x1024_S3x64x7x1024 : S3x64x1x1024.Broadcasts S3x64x7x1024
  natLt_1_32 : 1 < 32
  reduces_S3x64x7x1024_S3x64x1024 : S3x64x7x1024.Reduces [2] S3x64x1024
  slices_S3x64x1024_o0_0_0_S3x64x1023 : S3x64x1024.Slices ![0, 0, 0] S3x64x1023
  slices_S64x1024_o0_1_S64x1023 : S64x1024.Slices ![0, 1] S64x1023
  shapeCasts_S64x1023_S1x64x1023 : S64x1023.ShapeCasts S1x64x1023
  slices_S3x64x1024_o0_0_1_S3x64x1023 : S3x64x1024.Slices ![0, 0, 1] S3x64x1023
  broadcasts_S1x64x1023_S3x64x1023 : S1x64x1023.Broadcasts S3x64x1023
  shapeCasts_S3x64x1023_S1x3x64x1023 : S3x64x1023.ShapeCasts S1x3x64x1023
  concatenates_S1x3x64x1023_S1x3x64x1023_S2x3x64x1023_d0 : Shape.Concatenates [S1x3x64x1023, S1x3x64x1023] S2x3x64x1023 0
  inb_S2x3x64x1023_S2x3x64x1023_0_0_0_0 : ∀ a, (![0, 0, 0, 0] : Fin 4 → Nat) a + S2x3x64x1023.size a ≤ S2x3x64x1023.size a
  h_S2x3x64x1023 : 0 < S2x3x64x1023.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x7x1024.size a ≤ S3x2048x7x1024.size a
  hwx0_0 : ∀ i : grid0.Coords, EltTy.bits .f32 = 32 ∨ (Rect.block (s := S3x2048x7x1024) S3x64x7x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x7x1024.size a ≤ S2048x7x1024.size a
  hwx0_1 : ∀ i : grid0.Coords, EltTy.bits .f32 = 32 ∨ (Rect.block (s := S2048x7x1024) S64x7x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x64x1024.size a ≤ S3x2048x1024.size a
  hwx0_2 : ∀ i : grid0.Coords, EltTy.bits .i32 = 32 ∨ (Rect.block (s := S3x2048x1024) S3x64x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S2048x1024.size a
  hwx0_3 : ∀ i : grid0.Coords, EltTy.bits .f32 = 32 ∨ (Rect.block (s := S2048x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x3x64x1023.size a ≤ S2x3x2048x1023.size a
  hwx0_4 : ∀ i : grid0.Coords, EltTy.bits .f32 = 32 ∨ (Rect.block (s := S2x3x2048x1023) S2x3x64x1023.size (cc0_transform_4 i) (hinb0_4 i)).WholeWords (EltTy.packing .f32)

variable [Facts₀]

abbrev win0_0 : Pipeline.Window sig grid0 :=
  Pipeline.Window.ofSpec (Memref.whole main_v0) S3x64x7x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x7x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S3x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x3x64x1023.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3x2048x1024x7 : Shape := ⟨4, ![3, 2048, 1024, 7]⟩
abbrev S2048x1024x3 : Shape := ⟨3, ![2048, 1024, 3]⟩
abbrev S2048x1024x7 : Shape := ⟨3, ![2048, 1024, 7]⟩
abbrev S2048x1024 : Shape := ⟨2, ![2048, 1024]⟩
abbrev S1x2048x1024x7 : Shape := ⟨4, ![1, 2048, 1024, 7]⟩
abbrev S_ : Shape := ⟨0, ![]⟩
abbrev S3x2048x1024 : Shape := ⟨3, ![3, 2048, 1024]⟩
abbrev S3x2048x1024x1 : Shape := ⟨4, ![3, 2048, 1024, 1]⟩
abbrev S3x2048x1024x1x1 : Shape := ⟨5, ![3, 2048, 1024, 1, 1]⟩
abbrev S1 : Shape := ⟨1, ![1]⟩
abbrev S1x1x1x1x1 : Shape := ⟨5, ![1, 1, 1, 1, 1]⟩
abbrev S3x2048x1023 : Shape := ⟨3, ![3, 2048, 1023]⟩
abbrev S2048x1023 : Shape := ⟨2, ![2048, 1023]⟩
abbrev S1x2048x1023 : Shape := ⟨3, ![1, 2048, 1023]⟩
abbrev S1x3x2048x1023 : Shape := ⟨4, ![1, 3, 2048, 1023]⟩
abbrev S2x3x2048x1023 : Shape := ⟨4, ![2, 3, 2048, 1023]⟩

abbrev nBuf : Space → Nat
  | .hbm => 60
  | .vmem => 0
  | .smem => 0
  | _ => 0

abbrev bufTy : (tb : Table) → Fin (tcTables nBuf tb) → BufTy
  | .hbm, ⟨0, _⟩ => ⟨S3x2048x1024x7, .f32⟩
  | .hbm, ⟨1, _⟩ => ⟨S2048x1024x3, .i32⟩
  | .hbm, ⟨2, _⟩ => ⟨S2048x1024x7, .f32⟩
  | .hbm, ⟨3, _⟩ => ⟨S2048x1024, .f32⟩
  | .hbm, ⟨4, _⟩ => ⟨S3x2048x1024x7, .f32⟩
  | .hbm, ⟨5, _⟩ => ⟨S1x2048x1024x7, .f32⟩
  | .hbm, ⟨6, _⟩ => ⟨S_, .f32⟩
  | .hbm, ⟨7, _⟩ => ⟨S1x2048x1024x7, .f32⟩
  | .hbm, ⟨8, _⟩ => ⟨S1x2048x1024x7, .f32⟩
  | .hbm, ⟨9, _⟩ => ⟨S3x2048x1024x7, .f32⟩
  | .hbm, ⟨10, _⟩ => ⟨S3x2048x1024x7, .f32⟩
  | .hbm, ⟨11, _⟩ => ⟨S3x2048x1024, .i32⟩
  | .hbm, ⟨12, _⟩ => ⟨S3x2048x1024x1, .i32⟩
  | .hbm, ⟨13, _⟩ => ⟨S_, .i32⟩
  | .hbm, ⟨14, _⟩ => ⟨S3x2048x1024x1, .i32⟩
  | .hbm, ⟨15, _⟩ => ⟨S3x2048x1024x1, .i1⟩
  | .hbm, ⟨16, _⟩ => ⟨S_, .i32⟩
  | .hbm, ⟨17, _⟩ => ⟨S3x2048x1024x1, .i32⟩
  | .hbm, ⟨18, _⟩ => ⟨S3x2048x1024x1, .i32⟩
  | .hbm, ⟨19, _⟩ => ⟨S3x2048x1024x1, .i32⟩
  | .hbm, ⟨20, _⟩ => ⟨S3x2048x1024x1x1, .i32⟩
  | .hbm, ⟨21, _⟩ => ⟨S1, .i32⟩
  | .hbm, ⟨22, _⟩ => ⟨S_, .i32⟩
  | .hbm, ⟨23, _⟩ => ⟨S3x2048x1024x1x1, .i32⟩
  | .hbm, ⟨24, _⟩ => ⟨S3x2048x1024x1x1, .i1⟩
  | .hbm, ⟨25, _⟩ => ⟨S1x1x1x1x1, .i32⟩
  | .hbm, ⟨26, _⟩ => ⟨S3x2048x1024x1x1, .i32⟩
  | .hbm, ⟨27, _⟩ => ⟨S3x2048x1024x1x1, .i1⟩
  | .hbm, ⟨28, _⟩ => ⟨S3x2048x1024x1x1, .i1⟩
  | .hbm, ⟨29, _⟩ => ⟨S_, .i1⟩
  | .hbm, ⟨30, _⟩ => ⟨S3x2048x1024x1, .i1⟩
  | .hbm, ⟨31, _⟩ => ⟨S3x2048x1024x1, .f32⟩
  | .hbm, ⟨32, _⟩ => ⟨S_, .f32⟩
  | .hbm, ⟨33, _⟩ => ⟨S3x2048x1024x1, .f32⟩
  | .hbm, ⟨34, _⟩ => ⟨S3x2048x1024x1, .f32⟩
  | .hbm, ⟨35, _⟩ => ⟨S3x2048x1024, .f32⟩
  | .hbm, ⟨36, _⟩ => ⟨S_, .f32⟩
  | .hbm, ⟨37, _⟩ => ⟨S3x2048x1024, .f32⟩
  | .hbm, ⟨38, _⟩ => ⟨S3x2048x1023, .f32⟩
  | .hbm, ⟨39, _⟩ => ⟨S2048x1023, .f32⟩
  | .hbm, ⟨40, _⟩ => ⟨S1x2048x1023, .f32⟩
  | .hbm, ⟨41, _⟩ => ⟨S3x2048x1023, .f32⟩
  | .hbm, ⟨42, _⟩ => ⟨S_, .f32⟩
  | .hbm, ⟨43, _⟩ => ⟨S3x2048x1023, .f32⟩
  | .hbm, ⟨44, _⟩ => ⟨S3x2048x1023, .f32⟩
  | .hbm, ⟨45, _⟩ => ⟨S3x2048x1023, .f32⟩
  | .hbm, ⟨46, _⟩ => ⟨S3x2048x1023, .f32⟩
  | .hbm, ⟨47, _⟩ => ⟨S3x2048x1023, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S3x2048x1023, .f32⟩
  | .hbm, ⟨52, _⟩ => ⟨S3x2048x1023, .f32⟩
  | .hbm, ⟨53, _⟩ => ⟨S_, .f32⟩
  | .hbm, ⟨54, _⟩ => ⟨S3x2048x1023, .f32⟩
  | .hbm, ⟨55, _⟩ => ⟨S3x2048x1023, .f32⟩
  | .hbm, ⟨56, _⟩ => ⟨S3x2048x1023, .f32⟩
  | .hbm, ⟨57, _⟩ => ⟨S1x3x2048x1023, .f32⟩
  | .hbm, ⟨58, _⟩ => ⟨S1x3x2048x1023, .f32⟩
  | .hbm, ⟨59, _⟩ => ⟨S2x3x2048x1023, .f32⟩
  | _, _ => ⟨S3x2048x1024x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩

abbrev nD : Nat := 1
abbrev τ : Topo := Topo.v7x

variable {F : FTy → Type} [FloatOps F]

class Facts₀ : Prop where
  bcast_S2048x1024x7_S1x2048x1024x7_1_2_3 : S2048x1024x7.BroadcastsInDim S1x2048x1024x7 (![1, 2, 3] : Fin 3 → Fin S1x2048x1024x7.rank)
  bcast_S_S1x2048x1024x7 : S_.BroadcastsInDim S1x2048x1024x7 (![] : Fin 0 → Fin S1x2048x1024x7.rank)
  bcast_S1x2048x1024x7_S3x2048x1024x7_0_1_2_3 : S1x2048x1024x7.BroadcastsInDim S3x2048x1024x7 (![0, 1, 2, 3] : Fin 4 → Fin S3x2048x1024x7.rank)
  transposes_S2048x1024x3_S3x2048x1024_2_0_1 : S2048x1024x3.Transposes [2, 0, 1] S3x2048x1024
  bcast_S3x2048x1024_S3x2048x1024x1_0_1_2 : S3x2048x1024.BroadcastsInDim S3x2048x1024x1 (![0, 1, 2] : Fin 3 → Fin S3x2048x1024x1.rank)
  bcast_S_S3x2048x1024x1 : S_.BroadcastsInDim S3x2048x1024x1 (![] : Fin 0 → Fin S3x2048x1024x1.rank)
  shapeCasts_S3x2048x1024x1_S3x2048x1024x1x1 : S3x2048x1024x1.ShapeCasts S3x2048x1024x1x1
  bcast_S_S3x2048x1024x1x1 : S_.BroadcastsInDim S3x2048x1024x1x1 (![] : Fin 0 → Fin S3x2048x1024x1x1.rank)
  bcast_S1_S1x1x1x1x1_4 : S1.BroadcastsInDim S1x1x1x1x1 (![4] : Fin 1 → Fin S1x1x1x1x1.rank)
  bcast_S1x1x1x1x1_S3x2048x1024x1x1_0_1_2_3_4 : S1x1x1x1x1.BroadcastsInDim S3x2048x1024x1x1 (![0, 1, 2, 3, 4] : Fin 5 → Fin S3x2048x1024x1x1.rank)
  reducesTo_S3x2048x1024x1x1_S3x2048x1024x1_d4 : S3x2048x1024x1x1.ReducesTo [4] S3x2048x1024x1
  h_S_ : 0 < S_.numel
  shapeCasts_S3x2048x1024x1_S3x2048x1024 : S3x2048x1024x1.ShapeCasts S3x2048x1024
  reducesTo_S3x2048x1024x7_S3x2048x1024_d3 : S3x2048x1024x7.ReducesTo [3] S3x2048x1024
  slices_S3x2048x1024_S3x2048x1023_0_0_0 : S3x2048x1024.Slices ![0, 0, 0] S3x2048x1023
  slices_S2048x1024_S2048x1023_0_1 : S2048x1024.Slices ![0, 1] S2048x1023
  bcast_S2048x1023_S1x2048x1023_1_2 : S2048x1023.BroadcastsInDim S1x2048x1023 (![1, 2] : Fin 2 → Fin S1x2048x1023.rank)
  slices_S3x2048x1024_S3x2048x1023_0_0_1 : S3x2048x1024.Slices ![0, 0, 1] S3x2048x1023
  bcast_S_S3x2048x1023 : S_.BroadcastsInDim S3x2048x1023 (![] : Fin 0 → Fin S3x2048x1023.rank)
  bcast_S1x2048x1023_S3x2048x1023_0_1_2 : S1x2048x1023.BroadcastsInDim S3x2048x1023 (![0, 1, 2] : Fin 3 → Fin S3x2048x1023.rank)
  bcast_S3x2048x1023_S1x3x2048x1023_1_2_3 : S3x2048x1023.BroadcastsInDim S1x3x2048x1023 (![1, 2, 3] : Fin 3 → Fin S1x3x2048x1023.rank)
  concatenates_S1x3x2048x1023_S1x3x2048x1023_S2x3x2048x1023_d0 : Shape.Concatenates [S1x3x2048x1023, S1x3x2048x1023] S2x3x2048x1023 0
  gather_S3x2048x1024x7_S3x2048x1024x1x1_S3x2048x1024x1_n_3_012_012_3_4_1111_wf : GatherDims.WF S3x2048x1024x7 S3x2048x1024x1x1 S3x2048x1024x1 [] [3] [0, 1, 2] [3] [0, 1, 2] 4 ![1, 1, 1, 1]

variable [Facts₀]

def gather_S3x2048x1024x7_S3x2048x1024x1x1_S3x2048x1024x1_n_3_012_012_3_4_1111 : GatherDims S3x2048x1024x7 S3x2048x1024x1x1 S3x2048x1024x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S3x2048x1024x7_S3x2048x1024x1x1_S3x2048x1024x1_n_3_012_012_3_4_1111_wf

class Facts : Prop extends Facts₀ where

variable [Facts]
-- ==== Proof.Spec.lean ====
/-
  The value both programs compute, as one function of the four argument arrays.

  With probabilities `o[n,b,t,a]`, action labels `lab[b,t,n]`, a mask `mk[b,t,a]` and rewards `rw[b,t]`
  (3 heads, 2048 rows, 1024 steps, 7 actions):
    q[n,b,t,a]   = log o[n,b,t,a] · (1 − mk[b,t,a])          the masked log-probability of action a
    cur[n,b,t]   = q[n,b,t, lab[b,t,n]]                        the value of the action taken
    best[n,b,t]  = max over the seven actions of q[n,b,t,·]   (from −∞)
    bell[n,b,t]  = (rw[b,t+1] + γ · best[n,b,t+1]) − cur[n,b,t]        for t < 1023
  and the result, of shape [2, 3, 2048, 1023], holds `cur` in its first half and the negated Bellman
  error clipped to [−1, 1] in its second. Everything is read on the extended reals; the three float
  literals (1, −1, γ = f32 0.99) stay the words both programs print.
-/
import Idealize.ShloMosaic.PureOps.Ideal
import Idealize.ShloMosaic.PureOps.Ideal.Laws
import Idealize.ShloMosaic.Lib.ValueIdx

noncomputable section

namespace Cert.QLoss

open Idealize.ShloMosaic Idealize.ShloMosaic.ValueIdx

/-- The probabilities' shape: heads, rows, steps, actions. -/
abbrev SProb : Shape := ⟨4, ![3, 2048, 1024, 7]⟩
/-- The labels' shape: rows, steps, heads. -/
abbrev SLab : Shape := ⟨3, ![2048, 1024, 3]⟩
/-- The mask's shape: rows, steps, actions. -/
abbrev SMask : Shape := ⟨3, ![2048, 1024, 7]⟩
/-- The rewards' shape: rows, steps. -/
abbrev SRew : Shape := ⟨2, ![2048, 1024]⟩
/-- The result's shape: (value, error), heads, rows, steps but the last. -/
abbrev SRes : Shape := ⟨4, ![2, 3, 2048, 1023]⟩

/-- The float 1. -/
abbrev one : EReal := Ideal.ofBits .f32 0x3F800000#32
/-- The float −1. -/
abbrev negOne : EReal := Ideal.ofBits .f32 0xBF800000#32
/-- The discount, the float nearest 0.99. -/
abbrev gamma : EReal := Ideal.ofBits .f32 0x3F7D70A4#32
/-- −∞, from which a maximum starts. -/
abbrev negInf : EReal := Ideal.ofBits .f32 0xFF800000#32

variable (o : SProb.Idx → EReal) (lab : SLab.Idx → BitVec 32) (mk : SMask.Idx → EReal) (rw : SRew.Idx → EReal)

/-- The masked log-probability of action `a` for head `n` at row `b`, step `t`. -/
def q (n : Fin 3) (b : Fin 2048) (t : Fin 1024) (a : Fin 7) : EReal :=
  Ideal.log (o (ix4 n b t a)) * (one - mk (ix3 b t a))

/-- The action a label word names, taken modulo 7 so that it is defined for every word; for a
    label in range (0 to 6) it is the label itself. -/
def act (n : Fin 3) (b : Fin 2048) (t : Fin 1024) : Fin 7 :=
  ⟨(lab (ix3 b t n)).toNat % 7, Nat.mod_lt _ (by norm_num)⟩

/-- The masked log-probability of the action taken. -/
def cur (n : Fin 3) (b : Fin 2048) (t : Fin 1024) : EReal :=
  q o mk n b t (act lab n b t)

/-- The largest masked log-probability over the seven actions. -/
def best (n : Fin 3) (b : Fin 2048) (t : Fin 1024) : EReal :=
  (Finset.univ : Finset (Fin 7)).fold max negInf (fun a => q o mk n b t a)

/-- The step after `t`, for `t` below 1023. -/
abbrev next (t : Fin 1023) : Fin 1024 := ⟨t.val + 1, by omega⟩
/-- Step `t` itself among the 1024. -/
abbrev here (t : Fin 1023) : Fin 1024 := ⟨t.val, by omega⟩

/-- The Bellman error at step `t`: the next step's reward and discounted best value, less the
    current value. -/
def bell (n : Fin 3) (b : Fin 2048) (t : Fin 1023) : EReal :=
  (rw (ix2 b (next t)) + gamma * best o mk n b (next t)) - cur o lab mk n b (here t)

/-- The error clipped to [−1, 1], negated. -/
def err (n : Fin 3) (b : Fin 2048) (t : Fin 1023) : EReal :=
  -(min one (max negOne (bell o lab mk rw n b t)))

/-- The result at coordinates (half, head, row, step). -/
def resAt (s : Fin 2) (n : Fin 3) (b : Fin 2048) (t : Fin 1023) : EReal :=
  if s.val = 0 then cur o lab mk n b (here t) else err o lab mk rw n b t

/-- The whole result array. -/
def result : SRes.Idx → EReal := fun j => resAt o lab mk rw (j 0) (j 1) (j 2) (j 3)

theorem result_ix4 (s : Fin 2) (n : Fin 3) (b : Fin 2048) (t : Fin 1023) :
    result o lab mk rw (ix4 s n b t) = resAt o lab mk rw s n b t := rfl

/-- Every label is one of the seven actions. -/
def LabelsInRange : Prop := ∀ i : SLab.Idx, (lab i).toNat ≤ 6

end Cert.QLoss

end
-- ==== Proof.PreLabels.lean ====
/-
  The label range, read back from the precondition.

  The precondition is a conjunction of five `all`s over the argument arrays; the last two run over the
  label words `w` and say `0 ≤ w` and `w ≤ 6`, both as signed comparisons. A conjunction that is 1 has
  every conjunct 1; an `all` that is 1 has a 1 at every element; a signed comparison that is 1 orders
  its operands as integers; and a 32-bit word that lies between 0 and 6 as an integer has its top bit
  clear, so it is the same number read unsigned. Hence every label word is at most 6 as a natural number.
-/
import proofs.«405629_j74689481277494_2_alg».proof.Pre_finite_inputs
import proofs.«405629_j74689481277494_2_alg».proof.Proof.Spec
import Idealize.ShloMosaic.Lib.ReduceAll

namespace Cert.QLoss

open Idealize.ShloMosaic Idealize.ShloMosaic.ValueIdx

/-- A 32-bit word between 0 and 6 as a signed number is at most 6 read unsigned: a word with its top
    bit set reads negative, and one with it clear reads the same both ways. -/
theorem toNat_le_six_of_signed_range {w : BitVec 32} (h0 : (0#32 : BitVec 32).toInt ≤ w.toInt)
    (h6 : w.toInt ≤ (6#32 : BitVec 32).toInt) : w.toNat ≤ 6 := by
  rw [show (0#32 : BitVec 32).toInt = 0 from by decide] at h0
  rw [show (6#32 : BitVec 32).toInt = 6 from by decide] at h6
  have hw : w.toNat < 2 ^ 32 := w.isLt
  by_cases hm : 2 * w.toNat < 2 ^ 32
  · rw [BitVec.toInt_eq_toNat_of_lt hm] at h6
    omega
  · rw [BitVec.toInt_eq_toNat_cond, if_neg hm] at h0
    omega

/-- Under the precondition every label word is one of the seven actions: the fourth conjunct gives
    `0 ≤ w` and the fifth `w ≤ 6` at each label `w`, signed, and together they bound the unsigned value. -/
theorem labels_of_pre {F : FTy → Type} [FloatOps F] [Cert.Pre_finite_inputs.Facts]
    (x0 : FVec F Cert.Pre_finite_inputs.S3x2048x1024x7 .f32) (x1 : IVec Cert.Pre_finite_inputs.S2048x1024x3 32)
    (x2 : FVec F Cert.Pre_finite_inputs.S2048x1024x7 .f32) (x3 : FVec F Cert.Pre_finite_inputs.S2048x1024 .f32)
    (h : Cert.Pre_finite_inputs.fn (F := F) x0 x1 x2 x3 = fun _ => 1#1) :
    LabelsInRange x1 := by
  show ∀ i : SLab.Idx, (x1 i).toNat ≤ 6
  intro i
  -- the result has one index, so an `all` into it ranges over every element
  haveI : Subsingleton Cert.Pre_finite_inputs.S_.Idx := ⟨fun a b => funext fun d => d.elim0⟩
  have e := congrFun h ix0
  dsimp only [Cert.Pre_finite_inputs.fn, Cert.Pre_finite_inputs.fn_part1, andi] at e
  -- the conjunction is ((finite ∧ all (0 ≤ w)) ∧ all (w ≤ 6))
  obtain ⟨e1, e6⟩ := IntOp.andi_eq_one.1 e
  obtain ⟨-, e0⟩ := IntOp.andi_eq_one.1 e1
  -- at the label i; the broadcast constants read 0 and 6 everywhere
  have g0 : IntOp.cmpi .sge (x1 i) 0#32 = 1#1 := Host.reduce_andi_all _ _ _ _ _ e0 i
  have g6 : IntOp.cmpi .sle (x1 i) 6#32 = 1#1 := Host.reduce_andi_all _ _ _ _ _ e6 i
  exact toNat_le_six_of_signed_range (IntOp.cmpi_sge.1 g0) (IntOp.cmpi_sle.1 g6)

end Cert.QLoss
-- ==== Proof.KernelHost.lean ====
/-
  The arrays the kernel's region finds, read at an index.

  Before the region the program re-lays its arguments: the probabilities [3, 2048, 1024, 7] are
  transposed to [3, 2048, 7, 1024] (actions before steps), the mask [2048, 1024, 7] to [2048, 7, 1024],
  and the label words are clamped to [0, 6] and transposed from [2048, 1024, 3] to [3, 2048, 1024].
  A label already in range is left alone by the clamp, so under the label range the third array is
  the labels themselves, re-laid.
-/
import proofs.«405629_j74689481277494_2_alg».proof.Proof.Gen.KernelIdeal.Value
import proofs.«405629_j74689481277494_2_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace Cert.QLoss.KernelHost

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- Clamping a word that is already between 0 and 6 to [0, 6] changes nothing. -/
theorem clamp_id (w : BitVec 32) (hw : w.toNat ≤ 6) : IntOp.minsi 6#32 (IntOp.maxsi 0#32 w) = w := by
  have hti : w.toInt = w.toNat := StableHlo.Predicate.toInt_eq_toNat_of_lt (by omega)
  have h0 : (0#32 : BitVec 32).toInt = 0 := by decide
  have h6 : (6#32 : BitVec 32).toInt = 6 := by decide
  have hmax : IntOp.maxsi 0#32 w = w := by
    unfold IntOp.maxsi
    split <;> rename_i hc <;> simp only [BitVec.slt, hti, h0, decide_eq_true_eq] at hc
    all_goals first | rfl | (exfalso; omega)
  rw [hmax]
  unfold IntOp.minsi
  split <;> rename_i hc <;> simp only [BitVec.slt, hti, h6, decide_eq_true_eq] at hc
  all_goals first | rfl | (exfalso; omega)

/-- The probabilities as the region finds them: the argument with its last two axes exchanged. -/
theorem V_probs (c : Dev nD) :
    (V m c main_v0 : S3x2048x7x1024.Idx → Elt F .f32)
      = transpose S3x2048x7x1024 [0, 1, 3, 2] (m ((c : Thread nD τ).loc main_arg0)) transposes_S3x2048x1024x7_S3x2048x7x1024_0_1_3_2 := by
  dsimp only [V]
  simp only [hostOps0, hostOps0_1, hostOps0_2, List.flatten_cons, List.flatten_nil, List.append_nil, List.cons_append, List.nil_append]
  after_results

/-- The mask as the region finds it: the argument with its last two axes exchanged. -/
theorem V_mask (c : Dev nD) :
    (V m c main_v1 : S2048x7x1024.Idx → Elt F .f32)
      = transpose S2048x7x1024 [0, 2, 1] (m ((c : Thread nD τ).loc main_arg2)) transposes_S2048x1024x7_S2048x7x1024_0_2_1 := by
  dsimp only [V]
  simp only [hostOps0, hostOps0_1, hostOps0_2, List.flatten_cons, List.flatten_nil, List.append_nil, List.cons_append, List.nil_append]
  after_results

/-- The labels as the region finds them: clamped to [0, 6], heads first. -/
theorem V_labels (c : Dev nD) :
    (V m c main_v3 : S3x2048x1024.Idx → BitVec 32)
      = transpose S3x2048x1024 [2, 0, 1]
          (minsi (broadcastInDim S2048x1024x3 ![] bcast_S_S2048x1024x3 (constantI S_ 32 6#32))
            (maxsi (broadcastInDim S2048x1024x3 ![] bcast_S_S2048x1024x3 (constantI S_ 32 0#32)) (m ((c : Thread nD τ).loc main_arg1))))
          transposes_S2048x1024x3_S3x2048x1024_2_0_1 := by
  dsimp only [V]
  simp only [hostOps0, hostOps0_1, hostOps0_2, List.flatten_cons, List.flatten_nil, List.append_nil, List.cons_append, List.nil_append]
  after_results
  rfl

/-- Entry (head, row, action, step) of the re-laid probabilities is entry (head, row, step, action) of the argument. -/
theorem V_probs_apply (c : Dev nD) (n : Fin 3) (b : Fin 2048) (a : Fin 7) (t : Fin 1024) :
    (V m c main_v0 : S3x2048x7x1024.Idx → Elt F .f32) (ix4 n b a t)
      = (m ((c : Thread nD τ).loc main_arg0) : S3x2048x1024x7.Idx → Elt F .f32) (ix4 n b t a) := by
  rw [V_probs]
  exact transpose_apply [0, 1, 3, 2] _ transposes_S3x2048x1024x7_S3x2048x7x1024_0_1_3_2 (ix4 n b a t) (ix4 n b t a) (fun d => match d with
    | ⟨0, _⟩ => rfl
    | ⟨1, _⟩ => rfl
    | ⟨2, _⟩ => rfl
    | ⟨3, _⟩ => rfl)

/-- Entry (row, action, step) of the re-laid mask is entry (row, step, action) of the argument. -/
theorem V_mask_apply (c : Dev nD) (b : Fin 2048) (a : Fin 7) (t : Fin 1024) :
    (V m c main_v1 : S2048x7x1024.Idx → Elt F .f32) (ix3 b a t)
      = (m ((c : Thread nD τ).loc main_arg2) : S2048x1024x7.Idx → Elt F .f32) (ix3 b t a) := by
  rw [V_mask]
  exact transpose_apply [0, 2, 1] _ transposes_S2048x1024x7_S2048x7x1024_0_2_1 (ix3 b a t) (ix3 b t a) (fun d => match d with
    | ⟨0, _⟩ => rfl
    | ⟨1, _⟩ => rfl
    | ⟨2, _⟩ => rfl)

/-- Entry (head, row, step) of the clamped, re-laid labels is label (row, step, head) itself when that
    label is between 0 and 6. -/
theorem V_labels_apply (c : Dev nD) (n : Fin 3) (b : Fin 2048) (t : Fin 1024)
    (hw : ((m ((c : Thread nD τ).loc main_arg1) : S2048x1024x3.Idx → BitVec 32) (ix3 b t n)).toNat ≤ 6) :
    (V m c main_v3 : S3x2048x1024.Idx → BitVec 32) (ix3 n b t)
      = (m ((c : Thread nD τ).loc main_arg1) : S2048x1024x3.Idx → BitVec 32) (ix3 b t n) := by
  rw [V_labels]
  refine (transpose_apply [2, 0, 1] _ transposes_S2048x1024x3_S3x2048x1024_2_0_1 (ix3 n b t) (ix3 b t n) (fun d => match d with
    | ⟨0, _⟩ => rfl
    | ⟨1, _⟩ => rfl
    | ⟨2, _⟩ => rfl)).trans ?_
  have e6 : broadcastInDim S2048x1024x3 ![] bcast_S_S2048x1024x3 (constantI S_ 32 6#32) (ix3 b t n) = 6#32 :=
    broadcastInDim_apply _ bcast_S_S2048x1024x3 (constantI S_ 32 6#32) (ix3 b t n) (fun a => a.elim0) (fun a => a.elim0)
  have e0 : broadcastInDim S2048x1024x3 ![] bcast_S_S2048x1024x3 (constantI S_ 32 0#32) (ix3 b t n) = 0#32 :=
    broadcastInDim_apply _ bcast_S_S2048x1024x3 (constantI S_ 32 0#32) (ix3 b t n) (fun a => a.elim0) (fun a => a.elim0)
  show IntOp.minsi (broadcastInDim S2048x1024x3 ![] bcast_S_S2048x1024x3 (constantI S_ 32 6#32) (ix3 b t n))
      (IntOp.maxsi (broadcastInDim S2048x1024x3 ![] bcast_S_S2048x1024x3 (constantI S_ 32 0#32) (ix3 b t n)) _) = _
  rw [e6, e0]
  exact clamp_id _ hw

end Cert.QLoss.KernelHost

end
-- ==== Proof.KernelPayload.lean ====
import proofs.«405629_j74689481277494_2_alg».proof.Proof.Gen.KernelIdeal.Skeleton
import proofs.«405629_j74689481277494_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.WordArith

noncomputable section

namespace Cert.QLoss

open Cert.KernelIdeal Cert.KernelIdeal.Gen Idealize.ShloMosaic Idealize.ShloMosaic.ValueIdx

/-! ## The stored value, named piece by piece

The value the kernel stores is a composition of elementwise operations, two reductions over the
seven actions, three cuts along the step axis and one concatenation. The definitions below name
the intermediate arrays as functions of the four loaded blocks. -/

section Pieces

variable (v0 : Vec Ideal S3x64x7x1024 .f32) (v2 : Vec Ideal S64x7x1024 .f32)
  (v4 : Vec Ideal S3x64x1024 .i32) (v6 : Vec Ideal S64x1024 .f32)

/-- One minus the mask, under a leading unit axis. -/
def keepV : FVec Ideal S1x64x7x1024 .f32 :=
  subf (broadcast S1x64x7x1024 (Scalar.ofBits .f32 0x3F800000#32) : FVec Ideal S1x64x7x1024 .f32)
    (shapeCast S1x64x7x1024
      (shapeCast S64x7x1024 v2 shapeCasts_S64x7x1024_S64x7x1024 : FVec Ideal S64x7x1024 .f32)
      shapeCasts_S64x7x1024_S1x64x7x1024 : FVec Ideal S1x64x7x1024 .f32)

/-- The masked log-probabilities: the logarithm of the probabilities times one minus the mask,
    the mask repeated over the three heads. -/
def qV : FVec Ideal S3x64x7x1024 .f32 :=
  mulf (log (shapeCast S3x64x7x1024 v0 shapeCasts_S3x64x7x1024_S3x64x7x1024 : FVec Ideal S3x64x7x1024 .f32))
    (broadcastTo S3x64x7x1024 (keepV v2) broadcasts_S1x64x7x1024_S3x64x7x1024 : FVec Ideal S3x64x7x1024 .f32)

/-- The label words repeated along the action axis. -/
def labV : IVec S3x64x7x1024 32 :=
  broadcastTo S3x64x7x1024
    (shapeCast S3x64x1x1024
      (shapeCast S3x64x1024 v4 shapeCasts_S3x64x1024_S3x64x1024 : IVec S3x64x1024 32)
      shapeCasts_S3x64x1024_S3x64x1x1024 : IVec S3x64x1x1024 32)
    broadcasts_S3x64x1x1024_S3x64x7x1024

/-- The indicator of the action taken: one where the action's number is the label, zero elsewhere. -/
def hotV : FVec Ideal S3x64x7x1024 .f32 :=
  sitofp .f32
    (extui 32 (cmpi .eq (iota .tc S3x64x7x1024 32 [2] iota_S3x64x7x1024_d2_w32) (labV v4)) natLt_1_32)

/-- The value of the action taken: the sum over the seven actions of the masked
    log-probability times the indicator. -/
def curV : FVec Ideal S3x64x1024 .f32 :=
  multiReduction .add [2] S3x64x1024 (mulf (qV v0 v2) (hotV v4) : FVec Ideal S3x64x7x1024 .f32) 0x00000000#32
    reduces_S3x64x7x1024_S3x64x1024 (.inl rfl) rfl

/-- The best value: the maximum over the seven actions of the masked log-probability. -/
def bestV : FVec Ideal S3x64x1024 .f32 :=
  multiReduction .maximumf [2] S3x64x1024 (qV v0 v2) 0xFF800000#32
    reduces_S3x64x7x1024_S3x64x1024 (.inl rfl) rfl

/-- The value of the action taken, at every step but the last. -/
def curCut : FVec Ideal S3x64x1023 .f32 :=
  extractStridedSlice S3x64x1023 ![0, 0, 0] (curV v0 v2 v4) slices_S3x64x1024_o0_0_0_S3x64x1023

/-- The best value, at every step but the first. -/
def bestCut : FVec Ideal S3x64x1023 .f32 :=
  extractStridedSlice S3x64x1023 ![0, 0, 1] (bestV v0 v2) slices_S3x64x1024_o0_0_1_S3x64x1023

/-- The rewards at every step but the first, repeated over the three heads. -/
def rewV : FVec Ideal S3x64x1023 .f32 :=
  broadcastTo S3x64x1023
    (shapeCast S1x64x1023
      (extractStridedSlice S64x1023 ![0, 1] v6 slices_S64x1024_o0_1_S64x1023 : FVec Ideal S64x1023 .f32)
      shapeCasts_S64x1023_S1x64x1023 : FVec Ideal S1x64x1023 .f32)
    broadcasts_S1x64x1023_S3x64x1023

/-- The Bellman error: the next step's reward and discounted best value, less the current value. -/
def bellV : FVec Ideal S3x64x1023 .f32 :=
  subf
    (addf (rewV v6)
      (mulf (broadcast S3x64x1023 (Scalar.ofBits .f32 0x3F7D70A4#32) : FVec Ideal S3x64x1023 .f32)
        (bestCut v0 v2) : FVec Ideal S3x64x1023 .f32) : FVec Ideal S3x64x1023 .f32)
    (curCut v0 v2 v4)

/-- The error clipped to [−1, 1], taken from zero. -/
def errV : FVec Ideal S3x64x1023 .f32 :=
  subf (broadcast S3x64x1023 (Scalar.ofBits .f32 0x00000000#32) : FVec Ideal S3x64x1023 .f32)
    (minimumf (broadcast S3x64x1023 (Scalar.ofBits .f32 0x3F800000#32) : FVec Ideal S3x64x1023 .f32)
      (maximumf (broadcast S3x64x1023 (Scalar.ofBits .f32 0xBF800000#32) : FVec Ideal S3x64x1023 .f32)
        (bellV v0 v2 v4 v6) : FVec Ideal S3x64x1023 .f32) : FVec Ideal S3x64x1023 .f32)

/-- The stored value is the two halves, each under a leading unit axis, laid one after the other. -/
theorem pay_eq_pieces :
    k0_pay1 (F := Ideal) v0 v2 v4 v6 =
      concatenate S2x3x64x1023 0
        [⟨S1x3x64x1023, shapeCast S1x3x64x1023 (curCut v0 v2 v4) shapeCasts_S3x64x1023_S1x3x64x1023⟩,
         ⟨S1x3x64x1023, shapeCast S1x3x64x1023 (errV v0 v2 v4 v6) shapeCasts_S3x64x1023_S1x3x64x1023⟩]
        concatenates_S1x3x64x1023_S1x3x64x1023_S2x3x64x1023_d0 := rfl

end Pieces

/-! ## Words: the indicator of a label, and the sum it picks out -/

/-- For a word that is at most six, the number of an action written as a word is that word
    exactly when the action is the one the word names. -/
theorem ofNat_eq_iff_of_le (w : BitVec 32) (hw : w.toNat ≤ 6) (a : Fin 7) :
    BitVec.ofNat 32 a.val = w ↔ a = ⟨w.toNat, by omega⟩ := by
  constructor
  · intro h
    apply Fin.ext
    have e := congrArg BitVec.toNat h
    rw [BitVec.toNat_ofNat] at e
    have ha := a.isLt
    show a.val = w.toNat
    omega
  · intro h
    rw [h]
    exact BitVec.eq_of_toNat_eq (by rw [BitVec.toNat_ofNat]; exact Nat.mod_eq_of_lt w.isLt)

/-- Summing over the seven actions against the indicator of a label in range leaves the term
    at that label: a product with zero vanishes and a product with one is the factor, on all
    of the extended reals. -/
theorem sum_indicator (f : Fin 7 → EReal) (w : BitVec 32) (hw : w.toNat ≤ 6) :
    ∑ a : Fin 7, f a * (if BitVec.ofNat 32 a.val = w then (1 : EReal) else 0) = f ⟨w.toNat, by omega⟩ := by
  rw [Finset.sum_eq_single (⟨w.toNat, by omega⟩ : Fin 7)]
  · rw [if_pos ((ofNat_eq_iff_of_le w hw _).2 rfl), mul_one]
  · intro a _ hne
    rw [if_neg (fun h => hne ((ofNat_eq_iff_of_le w hw a).1 h)), mul_zero]
  · intro h
    exact absurd (Finset.mem_univ _) h

/-- Comparing two words for equality, widening the resulting bit to a word and reading it as a
    signed integer gives one where the words agree and zero where they differ. -/
theorem indicator_word (x w : BitVec 32) :
    (FloatOps.sitofp (F := Ideal) .f32 ((IntOp.cmpi .eq x w).setWidth 32) : EReal)
      = if x = w then (1 : EReal) else 0 := by
  by_cases h : x = w
  · have hc : (x == w) = true := by rw [h]; exact beq_self_eq_true w
    have h1 : ((BitVec.ofBool true).setWidth 32).toInt = 1 := by decide
    rw [if_pos h]
    show ((((BitVec.ofBool (x == w)).setWidth 32).toInt : ℝ) : EReal) = 1
    rw [hc, h1]
    simp
  · have hc : (x == w) = false := by
      cases hb : (x == w) with
      | false => rfl
      | true => exact absurd (eq_of_beq hb) h
    have h0 : ((BitVec.ofBool false).setWidth 32).toInt = 0 := by decide
    rw [if_neg h]
    show ((((BitVec.ofBool (x == w)).setWidth 32).toInt : ℝ) : EReal) = 0
    rw [hc, h0]
    simp

/-! ## A cut along the last of three axes -/

/-- A rank-3 array cut along axis 2 from `o` reads, at `(a, c, j)`, the source at `(a, c, k)`
    with `k = o + j`. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (c : Fin n1) (j : Fin m) (k : Fin n2) (hk : k.val = o + j.val) :
    extractStridedSlice ⟨3, ![n0, n1, m]⟩ ![0, 0, o] X h (ix3 a c j) = X (ix3 a c k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## The pieces read at an index -/

section AtIndex

variable (v0 : Vec Ideal S3x64x7x1024 .f32) (v2 : Vec Ideal S64x7x1024 .f32)
  (v4 : Vec Ideal S3x64x1024 .i32) (v6 : Vec Ideal S64x1024 .f32)

/-- One minus the mask at (row, action, step), whatever the unit coordinate. -/
theorem keepV_apply (u : Fin 1) (b : Fin 64) (a : Fin 7) (t : Fin 1024) :
    keepV v2 (ix4 u b a t) = one - v2 (ix3 b a t) := by
  have e : (shapeCast S1x64x7x1024 (shapeCast S64x7x1024 v2 shapeCasts_S64x7x1024_S64x7x1024)
      shapeCasts_S64x7x1024_S1x64x7x1024) (ix4 u b a t) = v2 (ix3 b a t) := by
    rw [shapeCast_abc_1abc_apply, shapeCast_self]
  exact congrArg (fun x : EReal => one - x) e

/-- The masked log-probability at (head, row, action, step). -/
theorem qV_apply (n : Fin 3) (b : Fin 64) (a : Fin 7) (t : Fin 1024) :
    qV v0 v2 (ix4 n b a t) = Ideal.log (v0 (ix4 n b a t)) * (one - v2 (ix3 b a t)) := by
  have e1 : (shapeCast S3x64x7x1024 v0 shapeCasts_S3x64x7x1024_S3x64x7x1024) (ix4 n b a t) = v0 (ix4 n b a t) := by
    rw [shapeCast_self]
  have e2 : (broadcastTo S3x64x7x1024 (keepV v2) broadcasts_S1x64x7x1024_S3x64x7x1024) (ix4 n b a t)
      = one - v2 (ix3 b a t) := by
    refine (broadcastTo_apply _ _ (ix4 n b a t) (ix4 (0 : Fin 1) b a t) (fun ax => ?_)).trans
      (keepV_apply v2 0 b a t)
    match ax with
    | ⟨0, _⟩ => rfl
    | ⟨1, _⟩ => rfl
    | ⟨2, _⟩ => rfl
    | ⟨3, _⟩ => rfl
  show Ideal.log ((shapeCast S3x64x7x1024 v0 shapeCasts_S3x64x7x1024_S3x64x7x1024) (ix4 n b a t))
      * (broadcastTo S3x64x7x1024 (keepV v2) broadcasts_S1x64x7x1024_S3x64x7x1024) (ix4 n b a t) = _
  rw [e1, e2]

/-- The repeated label word at (head, row, action, step) is the label at (head, row, step). -/
theorem labV_apply (n : Fin 3) (b : Fin 64) (a : Fin 7) (t : Fin 1024) :
    labV v4 (ix4 n b a t) = v4 (ix3 n b t) := by
  unfold labV
  refine (broadcastTo_apply _ _ (ix4 n b a t) (ix4 n b (0 : Fin 1) t) (fun ax => ?_)).trans ?_
  · match ax with
    | ⟨0, _⟩ => rfl
    | ⟨1, _⟩ => rfl
    | ⟨2, _⟩ => rfl
    | ⟨3, _⟩ => rfl
  · refine (shapeCast_apply _ _ (ix4 n b (0 : Fin 1) t) (ix3 n b t) ?_).trans ?_
    · rw [Shape.rowMajor_val_three, Shape.rowMajor_val_four]
      show (n.val * 64 + b.val) * 1024 + t.val = ((n.val * 64 + b.val) * 1 + 0) * 1024 + t.val
      omega
    · rw [shapeCast_self]

/-- The indicator at (head, row, action, step): one where the action's number is the label. -/
theorem hotV_apply (n : Fin 3) (b : Fin 64) (a : Fin 7) (t : Fin 1024) :
    hotV v4 (ix4 n b a t) = if BitVec.ofNat 32 a.val = v4 (ix3 n b t) then (1 : EReal) else 0 := by
  have hi : iota .tc S3x64x7x1024 32 [2] iota_S3x64x7x1024_d2_w32 (ix4 n b a t) = BitVec.ofNat 32 a.val :=
    iota_single_apply .tc S3x64x7x1024 32 2 iota_S3x64x7x1024_d2_w32 (ix4 n b a t)
  show (FloatOps.sitofp (F := Ideal) .f32
      ((IntOp.cmpi .eq (iota .tc S3x64x7x1024 32 [2] iota_S3x64x7x1024_d2_w32 (ix4 n b a t))
        (labV v4 (ix4 n b a t))).setWidth 32) : EReal) = _
  rw [hi, labV_apply, indicator_word]

/-- The index a reduction over the action axis reads: the action put back between row and step. -/
theorem lift_block_ix3 (n : Fin 3) (b : Fin 64) (t : Fin 1024) (k : Fin 7) :
    reduces_S3x64x7x1024_S3x64x1024.lift (ix3 n b t) k = ix4 n b k t := by
  funext c
  apply Fin.ext
  match c with
  | ⟨0, _⟩ => rfl
  | ⟨1, _⟩ => rfl
  | ⟨2, _⟩ => rfl
  | ⟨3, _⟩ => rfl

/-- The value of the action taken at (head, row, step), for a label in range: the masked
    log-probability at the action the label names. -/
theorem curV_apply (n : Fin 3) (b : Fin 64) (t : Fin 1024) (w : BitVec 32) (hv : v4 (ix3 n b t) = w)
    (hw : w.toNat ≤ 6) :
    curV v0 v2 v4 (ix3 n b t)
      = Ideal.log (v0 (ix4 n b ⟨w.toNat, by omega⟩ t)) * (one - v2 (ix3 b ⟨w.toNat, by omega⟩ t)) := by
  have hterm : ∀ k : Fin 7,
      (mulf (qV v0 v2) (hotV v4) : FVec Ideal S3x64x7x1024 .f32) (reduces_S3x64x7x1024_S3x64x1024.lift (ix3 n b t) k)
        = (Ideal.log (v0 (ix4 n b k t)) * (one - v2 (ix3 b k t)))
            * (if BitVec.ofNat 32 k.val = w then (1 : EReal) else 0) := by
    intro k
    rw [lift_block_ix3]
    show qV v0 v2 (ix4 n b k t) * hotV v4 (ix4 n b k t) = _
    rw [qV_apply, hotV_apply, hv]
  unfold curV
  refine (Ideal.multiReduction_add_single _ _ _ _ _ (ix3 n b t)).trans ?_
  show ∑ k : Fin 7, (mulf (qV v0 v2) (hotV v4) : FVec Ideal S3x64x7x1024 .f32)
      (reduces_S3x64x7x1024_S3x64x1024.lift (ix3 n b t) k) = _
  rw [Finset.sum_congr rfl (fun k _ => hterm k)]
  exact sum_indicator (fun k => Ideal.log (v0 (ix4 n b k t)) * (one - v2 (ix3 b k t))) w hw

/-- The best value at (head, row, step): the largest masked log-probability over the seven
    actions, from −∞. -/
theorem bestV_apply (n : Fin 3) (b : Fin 64) (t : Fin 1024) :
    bestV v0 v2 (ix3 n b t)
      = (Finset.univ : Finset (Fin 7)).fold max negInf
          (fun a => Ideal.log (v0 (ix4 n b a t)) * (one - v2 (ix3 b a t))) := by
  have hf : (qV v0 v2 ∘ reduces_S3x64x7x1024_S3x64x1024.lift (ix3 n b t))
      = fun a : Fin 7 => Ideal.log (v0 (ix4 n b a t)) * (one - v2 (ix3 b a t)) := by
    refine funext fun (k : Fin 7) => ?_
    show qV v0 v2 (reduces_S3x64x7x1024_S3x64x1024.lift (ix3 n b t) k) = _
    rw [lift_block_ix3, qV_apply]
  unfold bestV
  refine (Ideal.multiReduction_maximumf_single _ _ _ _ _ (ix3 n b t)).trans ?_
  show (Finset.univ : Finset (Fin 7)).fold max negInf
      (qV v0 v2 ∘ reduces_S3x64x7x1024_S3x64x1024.lift (ix3 n b t)) = _
  rw [hf]
  rfl

/-- The cut value of the action taken at step `t` is the value at that step. -/
theorem curCut_apply (n : Fin 3) (b : Fin 64) (t : Fin 1023) :
    curCut v0 v2 v4 (ix3 n b t) = curV v0 v2 v4 (ix3 n b (here t)) :=
  slice3_axis2_apply 0 (curV v0 v2 v4) slices_S3x64x1024_o0_0_0_S3x64x1023 n b t (here t) (Nat.zero_add _).symm

/-- The cut best value at step `t` is the best value at the next step. -/
theorem bestCut_apply (n : Fin 3) (b : Fin 64) (t : Fin 1023) :
    bestCut v0 v2 (ix3 n b t) = bestV v0 v2 (ix3 n b (next t)) :=
  slice3_axis2_apply 1 (bestV v0 v2) slices_S3x64x1024_o0_0_1_S3x64x1023 n b t (next t) (Nat.add_comm t.val 1)

/-- The repeated reward at (head, row, step `t`) is the reward at the next step. -/
theorem rewV_apply (n : Fin 3) (b : Fin 64) (t : Fin 1023) :
    rewV v6 (ix3 n b t) = v6 (ix2 b (next t)) := by
  unfold rewV
  refine (broadcastTo_apply _ _ (ix3 n b t) (ix3 (0 : Fin 1) b t) (fun ax => ?_)).trans ?_
  · match ax with
    | ⟨0, _⟩ => rfl
    | ⟨1, _⟩ => rfl
    | ⟨2, _⟩ => rfl
  · rw [shapeCast_ab_1ab_apply]
    exact slice2_axis1_apply 1 v6 slices_S64x1024_o0_1_S64x1023 b t (next t) (Nat.add_comm t.val 1)

/-- The Bellman error at (head, row, step). -/
theorem bellV_apply (n : Fin 3) (b : Fin 64) (t : Fin 1023) :
    bellV v0 v2 v4 v6 (ix3 n b t)
      = (v6 (ix2 b (next t)) + gamma * bestV v0 v2 (ix3 n b (next t))) - curV v0 v2 v4 (ix3 n b (here t)) := by
  unfold bellV
  rw [subf_apply, addf_apply, mulf_apply, broadcast_apply, rewV_apply, bestCut_apply, curCut_apply,
    Ideal.ofBits_def]

/-- The clipped error taken from zero, at (head, row, step): the negated clipped Bellman error. -/
theorem errV_apply (n : Fin 3) (b : Fin 64) (t : Fin 1023) :
    errV v0 v2 v4 v6 (ix3 n b t)
      = -(min one (max negOne
          ((v6 (ix2 b (next t)) + gamma * bestV v0 v2 (ix3 n b (next t)))
            - curV v0 v2 v4 (ix3 n b (here t))))) := by
  unfold errV
  rw [subf_apply, minimumf_apply, maximumf_apply, broadcast_apply, broadcast_apply, broadcast_apply,
    bellV_apply, Ideal.ofBits_def, Ideal.ofBits_def, Ideal.ofBits_def, Ideal.ofBits_zero_f32, zero_sub]

end AtIndex

/-! ## Against the specification

The four blocks are pieces of the whole arrays, row `b` of a block being row `row b` of its
array, with the action and head axes where the arrays have them. -/

section AgainstSpec

variable (o : SProb.Idx → EReal) (lab : SLab.Idx → BitVec 32) (mk : SMask.Idx → EReal) (rwd : SRew.Idx → EReal)
  (v0 : Vec Ideal S3x64x7x1024 .f32) (v2 : Vec Ideal S64x7x1024 .f32)
  (v4 : Vec Ideal S3x64x1024 .i32) (v6 : Vec Ideal S64x1024 .f32) (row : Fin 64 → Fin 2048)

/-- The kernel's value of the action taken is the specification's. -/
theorem curV_eq_cur
    (h0 : ∀ (n : Fin 3) (b : Fin 64) (a : Fin 7) (t : Fin 1024), v0 (ix4 n b a t) = o (ix4 n (row b) t a))
    (h2 : ∀ (b : Fin 64) (a : Fin 7) (t : Fin 1024), v2 (ix3 b a t) = mk (ix3 (row b) t a))
    (h4 : ∀ (n : Fin 3) (b : Fin 64) (t : Fin 1024), v4 (ix3 n b t) = lab (ix3 (row b) t n))
    (hlab : LabelsInRange lab) (n : Fin 3) (b : Fin 64) (t : Fin 1024) :
    curV v0 v2 v4 (ix3 n b t) = cur o lab mk n (row b) t := by
  have hw : (lab (ix3 (row b) t n)).toNat ≤ 6 := hlab (ix3 (row b) t n)
  have ha : act lab n (row b) t = ⟨(lab (ix3 (row b) t n)).toNat, by omega⟩ :=
    Fin.ext (Nat.mod_eq_of_lt (by omega))
  rw [curV_apply v0 v2 v4 n b t (lab (ix3 (row b) t n)) (h4 n b t) hw, h0, h2]
  show _ = Ideal.log (o (ix4 n (row b) t (act lab n (row b) t)))
      * (one - mk (ix3 (row b) t (act lab n (row b) t)))
  rw [ha]

/-- The kernel's best value is the specification's. -/
theorem bestV_eq_best
    (h0 : ∀ (n : Fin 3) (b : Fin 64) (a : Fin 7) (t : Fin 1024), v0 (ix4 n b a t) = o (ix4 n (row b) t a))
    (h2 : ∀ (b : Fin 64) (a : Fin 7) (t : Fin 1024), v2 (ix3 b a t) = mk (ix3 (row b) t a))
    (n : Fin 3) (b : Fin 64) (t : Fin 1024) :
    bestV v0 v2 (ix3 n b t) = best o mk n (row b) t := by
  have hf : (fun a : Fin 7 => Ideal.log (v0 (ix4 n b a t)) * (one - v2 (ix3 b a t)))
      = fun a : Fin 7 => q o mk n (row b) t a := by
    funext a
    show _ = Ideal.log (o (ix4 n (row b) t a)) * (one - mk (ix3 (row b) t a))
    rw [h0, h2]
  rw [bestV_apply, hf]
  rfl

/-- The kernel's clipped error taken from zero is the specification's negated clipped error. -/
theorem errV_eq_err
    (h0 : ∀ (n : Fin 3) (b : Fin 64) (a : Fin 7) (t : Fin 1024), v0 (ix4 n b a t) = o (ix4 n (row b) t a))
    (h2 : ∀ (b : Fin 64) (a : Fin 7) (t : Fin 1024), v2 (ix3 b a t) = mk (ix3 (row b) t a))
    (h4 : ∀ (n : Fin 3) (b : Fin 64) (t : Fin 1024), v4 (ix3 n b t) = lab (ix3 (row b) t n))
    (h6 : ∀ (b : Fin 64) (t : Fin 1024), v6 (ix2 b t) = rwd (ix2 (row b) t))
    (hlab : LabelsInRange lab) (n : Fin 3) (b : Fin 64) (t : Fin 1023) :
    errV v0 v2 v4 v6 (ix3 n b t) = err o lab mk rwd n (row b) t := by
  rw [errV_apply, h6, bestV_eq_best o mk v0 v2 row h0 h2, curV_eq_cur o lab mk v0 v2 v4 row h0 h2 h4 hlab]
  rfl

end AgainstSpec

/-- THE STORED VALUE AT AN INDEX: at (half, head, row, step) the kernel's payload holds the
    specification's result at (half, head, the block row's place in the array, step). -/
theorem pay_apply [Cert.KernelIdeal.Facts]
    (o : SProb.Idx → EReal) (lab : SLab.Idx → BitVec 32) (mk : SMask.Idx → EReal) (rw : SRew.Idx → EReal)
    (v0 : Vec Ideal S3x64x7x1024 .f32) (v2 : Vec Ideal S64x7x1024 .f32) (v4 : Vec Ideal S3x64x1024 .i32) (v6 : Vec Ideal S64x1024 .f32)
    (row : Fin 64 → Fin 2048)
    (h0 : ∀ (n : Fin 3) (b : Fin 64) (a : Fin 7) (t : Fin 1024), v0 (ix4 n b a t) = o (ix4 n (row b) t a))
    (h2 : ∀ (b : Fin 64) (a : Fin 7) (t : Fin 1024), v2 (ix3 b a t) = mk (ix3 (row b) t a))
    (h4 : ∀ (n : Fin 3) (b : Fin 64) (t : Fin 1024), v4 (ix3 n b t) = lab (ix3 (row b) t n))
    (h6 : ∀ (b : Fin 64) (t : Fin 1024), v6 (ix2 b t) = rw (ix2 (row b) t))
    (hlab : LabelsInRange lab)
    (s : Fin 2) (n : Fin 3) (b : Fin 64) (t : Fin 1023) :
    k0_pay1 (F := Ideal) v0 v2 v4 v6 (ix4 s n b t) = resAt o lab mk rw s n (row b) t := by
  have hs2 := s.isLt
  rw [pay_eq_pieces]
  unfold resAt
  by_cases hs : s.val = 0
  · rw [if_pos hs]
    refine (concatenate_pair_apply_left (t := S2x3x64x1023) (s₁ := S1x3x64x1023) (s₂ := S1x3x64x1023) 0 _ _
      concatenates_S1x3x64x1023_S1x3x64x1023_S2x3x64x1023_d0 (ix4 s n b t) rfl (ix4 (0 : Fin 1) n b t)
      (fun ax => ?_)).trans ?_
    · match ax with
      | ⟨0, _⟩ => exact hs.symm
      | ⟨1, _⟩ => rfl
      | ⟨2, _⟩ => rfl
      | ⟨3, _⟩ => rfl
    · rw [shapeCast_abc_1abc_apply, curCut_apply]
      exact curV_eq_cur o lab mk v0 v2 v4 row h0 h2 h4 hlab n b (here t)
  · rw [if_neg hs]
    refine (concatenate_pair_apply_right (t := S2x3x64x1023) (s₁ := S1x3x64x1023) (s₂ := S1x3x64x1023) 0 _ _
      concatenates_S1x3x64x1023_S1x3x64x1023_S2x3x64x1023_d0 (ix4 s n b t) rfl rfl (ix4 (0 : Fin 1) n b t)
      (fun ax hax => ?_) ?_).trans ?_
    · match ax, hax with
      | ⟨0, _⟩, hax => exact absurd (Fin.ext rfl) hax
      | ⟨1, _⟩, _ => rfl
      | ⟨2, _⟩, _ => rfl
      | ⟨3, _⟩, _ => rfl
    · show 0 + 1 = s.val
      omega
    · rw [shapeCast_abc_1abc_apply]
      exact errV_eq_err o lab mk _ v0 v2 v4 v6 row h0 h2 h4 h6 hlab n b t

end Cert.QLoss

end
-- ==== Proof.KernelValue.lean ====
/-
  The kernel's result array as one function of its arguments.

  The grid has 32 points; point t works on rows 64 t … 64 t + 63 of every array: its blocks of the
  re-laid probabilities [3, 64, 7, 1024], mask [64, 7, 1024], labels [3, 64, 1024] and rewards [64, 1024],
  and its block [2, 3, 64, 1023] of the result. The value the body stores at (half, head, row b, step)
  of its block is the specification's value at row 64 t + b, and the 32 row bands tile the 2048
  rows, so the result array ends as the specification's result.
-/
import proofs.«405629_j74689481277494_2_alg».proof.Proof.KernelHost
import proofs.«405629_j74689481277494_2_alg».proof.Proof.KernelPayload

noncomputable section

namespace Cert.QLoss.KernelValue

open Cert.KernelIdeal Cert.KernelIdeal.Gen Cert.KernelIdeal.Value Idealize.ShloMosaic Idealize.ShloMosaic.TcCoe Idealize.SL.Sem
open Idealize.ShloMosaic.ValueIdx Cert.QLoss.KernelHost
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The argument arrays, at the specification's literal shapes. -/
abbrev probs (c : Dev nD) : SProb.Idx → EReal := m ((c : Thread nD τ).loc main_arg0)
abbrev labels (c : Dev nD) : SLab.Idx → BitVec 32 := m ((c : Thread nD τ).loc main_arg1)
abbrev mask (c : Dev nD) : SMask.Idx → EReal := m ((c : Thread nD τ).loc main_arg2)
abbrev rewards (c : Dev nD) : SRew.Idx → EReal := m ((c : Thread nD τ).loc main_arg3)

/-- The block index maps over the 32 grid points: every window moves along its row axis only, one
    block of 64 rows per point. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0
    ∧ win0_3.index t (0 : Fin 2) = t.val ∧ win0_3.index t (1 : Fin 2) = 0
    ∧ win0_4.index t (0 : Fin 4) = 0 ∧ win0_4.index t (1 : Fin 4) = 0 ∧ win0_4.index t (2 : Fin 4) = t.val ∧ win0_4.index t (3 : Fin 4) = 0 :=
  (by decide +kernel : ∀ t : Fin grid0.N, _)

theorem point_lt (t : Fin cfg0.N) : t.val < 32 := by
  exact lt_of_lt_of_eq t.isLt N_0

/-- Row `b` of point `t`'s blocks is row 64 t + b of the arrays. -/
def rowOf (t : Fin cfg0.N) (b : Fin 64) : Fin 2048 := ⟨64 * t.val + b.val, by have := point_lt t; omega⟩

/-- Point `t`'s block of the re-laid probabilities, entry by entry. -/
theorem probs_block (c : Dev nD) (t : Fin cfg0.N) (n : Fin 3) (b : Fin 64) (a : Fin 7) (s : Fin 1024) :
    (iblk m c 0 t : Vec Ideal S3x64x7x1024 .f32) (ix4 n b a s) = probs m c (ix4 n (rowOf t b) s a) := by
  obtain ⟨e0, e1, e2, e3, -⟩ := idx_facts t
  refine Eq.trans ?_ (V_probs_apply m c n (rowOf t b) a s)
  unfold iblk
  rw [View.read_apply]
  show V m c main_v0 _ = V m c main_v0 _
  congr 1
  funext d
  apply Fin.ext
  match d with
  | ⟨0, _⟩ => show win0_0.index t (0 : Fin 4) * 3 + 1 * n.val = n.val; rw [e0]; omega
  | ⟨1, _⟩ => show win0_0.index t (1 : Fin 4) * 64 + 1 * b.val = 64 * t.val + b.val; rw [e1]; omega
  | ⟨2, _⟩ => show win0_0.index t (2 : Fin 4) * 7 + 1 * a.val = a.val; rw [e2]; omega
  | ⟨3, _⟩ => show win0_0.index t (3 : Fin 4) * 1024 + 1 * s.val = s.val; rw [e3]; omega

/-- Point `t`'s block of the re-laid mask, entry by entry. -/
theorem mask_block (c : Dev nD) (t : Fin cfg0.N) (b : Fin 64) (a : Fin 7) (s : Fin 1024) :
    (iblk m c 1 t : Vec Ideal S64x7x1024 .f32) (ix3 b a s) = mask m c (ix3 (rowOf t b) s a) := by
  obtain ⟨-, -, -, -, e0, e1, e2, -⟩ := idx_facts t
  refine Eq.trans ?_ (V_mask_apply m c (rowOf t b) a s)
  unfold iblk
  rw [View.read_apply]
  show V m c main_v1 _ = V m c main_v1 _
  congr 1
  funext d
  apply Fin.ext
  match d with
  | ⟨0, _⟩ => show win0_1.index t (0 : Fin 3) * 64 + 1 * b.val = 64 * t.val + b.val; rw [e0]; omega
  | ⟨1, _⟩ => show win0_1.index t (1 : Fin 3) * 7 + 1 * a.val = a.val; rw [e1]; omega
  | ⟨2, _⟩ => show win0_1.index t (2 : Fin 3) * 1024 + 1 * s.val = s.val; rw [e2]; omega

/-- Point `t`'s block of the clamped, re-laid labels, entry by entry, for labels in range. -/
theorem labels_block (c : Dev nD) (hlab : LabelsInRange (labels m c)) (t : Fin cfg0.N) (n : Fin 3) (b : Fin 64) (s : Fin 1024) :
    (iblk m c 2 t : Vec Ideal S3x64x1024 .i32) (ix3 n b s) = labels m c (ix3 (rowOf t b) s n) := by
  obtain ⟨-, -, -, -, -, -, -, e0, e1, e2, -⟩ := idx_facts t
  refine Eq.trans ?_ (V_labels_apply m c n (rowOf t b) s (hlab _))
  unfold iblk
  rw [View.read_apply]
  show V m c main_v3 _ = V m c main_v3 _
  congr 1
  funext d
  apply Fin.ext
  match d with
  | ⟨0, _⟩ => show win0_2.index t (0 : Fin 3) * 3 + 1 * n.val = n.val; rw [e0]; omega
  | ⟨1, _⟩ => show win0_2.index t (1 : Fin 3) * 64 + 1 * b.val = 64 * t.val + b.val; rw [e1]; omega
  | ⟨2, _⟩ => show win0_2.index t (2 : Fin 3) * 1024 + 1 * s.val = s.val; rw [e2]; omega

/-- Point `t`'s block of the rewards, entry by entry. -/
theorem rewards_block (c : Dev nD) (t : Fin cfg0.N) (b : Fin 64) (s : Fin 1024) :
    (iblk m c 3 t : Vec Ideal S64x1024 .f32) (ix2 b s) = rewards m c (ix2 (rowOf t b) s) := by
  obtain ⟨-, -, -, -, -, -, -, -, -, -, e0, e1, -⟩ := idx_facts t
  refine Eq.trans ?_ (congrFun (V_main_arg3 m c) (ix2 (rowOf t b) s))
  unfold iblk
  rw [View.read_apply]
  show V m c main_arg3 _ = V m c main_arg3 _
  congr 1
  funext d
  apply Fin.ext
  match d with
  | ⟨0, _⟩ => show win0_3.index t (0 : Fin 2) * 64 + 1 * b.val = 64 * t.val + b.val; rw [e0]; omega
  | ⟨1, _⟩ => show win0_3.index t (1 : Fin 2) * 1024 + 1 * s.val = s.val; rw [e1]; omega

/-- What point `t` writes back is block `t` of the specification's result. -/
theorem flushed_eq (c : Dev nD) (hlab : LabelsInRange (labels m c)) (t : Fin cfg0.N) :
    (dats m 0 c).flushed 4 t
      = ((cfg0.win 4).blk t).view.read (Elt Ideal) (result (probs m c) (labels m c) (mask m c) (rewards m c)) := by
  rw [flushed4]
  unfold out0_4
  rw [View.canon_unit_zero hz4]
  simp only [View.ld_unit_zero (S := S3x64x7x1024) hz4, View.ld_unit_zero (S := S64x7x1024) hz3,
    View.ld_unit_zero (S := S3x64x1024) hz3, View.ld_unit_zero (S := S64x1024) hz2]
  obtain ⟨-, -, -, -, -, -, -, -, -, -, -, -, e0, e1, e2, e3⟩ := idx_facts t
  funext j
  obtain ⟨s, n, b, u, rfl⟩ : ∃ (s : Fin 2) (n : Fin 3) (b : Fin 64) (u : Fin 1023), j = ix4 s n b u := ⟨j 0, j 1, j 2, j 3, eq_ix4 j⟩
  show k0_pay1 (F := Ideal) (iblk m c 0 t) (iblk m c 1 t) (iblk m c 2 t) (iblk m c 3 t) (ix4 s n b u)
      = result (probs m c) (labels m c) (mask m c) (rewards m c) (((cfg0.win 4).blk t).view.emb (ix4 s n b u))
  refine (pay_apply (probs m c) (labels m c) (mask m c) (rewards m c) (iblk m c 0 t) (iblk m c 1 t) (iblk m c 2 t) (iblk m c 3 t)
    (rowOf t) (probs_block m c t) (mask_block m c t) (labels_block m c hlab t) (rewards_block m c t) hlab s n b u).trans ?_
  have he : ((cfg0.win 4).blk t).view.emb (ix4 s n b u) = ix4 s n (rowOf t b) u := by
    funext d
    apply Fin.ext
    match d with
    | ⟨0, _⟩ => show win0_4.index t (0 : Fin 4) * 2 + 1 * s.val = s.val; rw [e0]; omega
    | ⟨1, _⟩ => show win0_4.index t (1 : Fin 4) * 3 + 1 * n.val = n.val; rw [e1]; omega
    | ⟨2, _⟩ => show win0_4.index t (2 : Fin 4) * 64 + 1 * b.val = 64 * t.val + b.val; rw [e2]; omega
    | ⟨3, _⟩ => show win0_4.index t (3 : Fin 4) * 1023 + 1 * u.val = u.val; rw [e3]; omega
  rw [he, result_ix4]

/-- An index of the result array is in point `t`'s block iff each coordinate is in the block's range on its axis. -/
theorem mem_blk (t : Fin cfg0.N) (i : S2x3x2048x1023.Idx) :
    i ∈ ((cfg0.win 4).blk t).view.set ↔ ∀ a : Fin 4, win0_4.index t a * S2x3x64x1023.size a ≤ (i a).val ∧ (i a).val < win0_4.index t a * S2x3x64x1023.size a + S2x3x64x1023.size a := by
  show i ∈ ((View.whole main_v4).slice (win0_4.rect t)).set ↔ _
  rw [View.set_slice_whole, Rect.mem_set_unit]
  exact Iff.rfl

/-- Every index of the result array lies in the block of the point its row falls in. -/
theorem cover (i : S2x3x2048x1023.Idx) : ∃ t : Fin cfg0.N, (cfg0.win 4).flush t = true ∧ i ∈ ((cfg0.win 4).blk t).view.set := by
  have h0 : (i 0).val < 2 := (i 0).isLt
  have h1 : (i 1).val < 3 := (i 1).isLt
  have h2 : (i 2).val < 2048 := (i 2).isLt
  have h3 : (i 3).val < 1023 := (i 3).isLt
  have hN : cfg0.N = 32 := N_0
  let t : Fin cfg0.N := ⟨(i 2).val / 64, by rw [hN]; omega⟩
  have ht : t.val = (i 2).val / 64 := rfl
  obtain ⟨-, -, -, -, -, -, -, -, -, -, -, -, e0, e1, e2, e3⟩ := idx_facts t
  refine ⟨t, flush0_4 t, ?_⟩
  rw [mem_blk]
  intro a
  match a with
  | ⟨0, _⟩ => show win0_4.index t (0 : Fin 4) * 2 ≤ (i 0).val ∧ (i 0).val < win0_4.index t (0 : Fin 4) * 2 + 2; rw [e0]; omega
  | ⟨1, _⟩ => show win0_4.index t (1 : Fin 4) * 3 ≤ (i 1).val ∧ (i 1).val < win0_4.index t (1 : Fin 4) * 3 + 3; rw [e1]; omega
  | ⟨2, _⟩ => show win0_4.index t (2 : Fin 4) * 64 ≤ (i 2).val ∧ (i 2).val < win0_4.index t (2 : Fin 4) * 64 + 64; rw [e2, ht]; omega
  | ⟨3, _⟩ => show win0_4.index t (3 : Fin 4) * 1023 ≤ (i 3).val ∧ (i 3).val < win0_4.index t (3 : Fin 4) * 1023 + 1023; rw [e3]; omega

/-- The result array after the run is the specification's result of the arguments. -/
theorem final (c : Dev nD) (hlab : LabelsInRange (labels m c)) :
    (dats m 0 c).arrAt 4 cfg0.N = result (probs m c) (labels m c) (mask m c) (rewards m c) :=
  (dats m 0 c).arrAt_eq_of_cover 4 (result (probs m c) (labels m c) (mask m c) (rewards m c)) (fun t _ => flushed_eq m c hlab t) cover

/-- The kernel's run, read: the result array at the specification's result, the arguments unchanged. -/
theorem run (hlab : ∀ c : Dev nD, LabelsInRange (labels m c)) :
    θ_run defs (onTc (τ := τ) (main (F := Ideal))) ⟨m, fun _ => 0, ρ⟩ fun r => ∀ c : Dev nD,
      r.2.mem ((c : Thread nD τ).loc main_v4) = result (probs m c) (labels m c) (mask m c) (rewards m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hlab c)), (h c).2⟩) (run_blocks m ρ)

end Cert.QLoss.KernelValue

end
-- ==== Proof.RefStages.lean ====
/- The reference program's fold of its 56 host operations, read stage by stage: the operation list is cut into seven
   consecutive stretches; for an arbitrary valuation each stretch's value at the buffers later stretches read is the
   matching stage function of the values it found at the buffers it reads, and the buffers it does not write keep
   their contents. Chaining the stretches, the fold at the result buffer is the last stage of the four arguments. -/
import proofs.«405629_j74689481277494_2_alg».proof.Proof.RefRead
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 1 to 9: main_v5 = log x0 · (1 − x2), the third argument repeated along the leading axis; main_v7 = the
    second argument with its last axis moved to the front and a trailing unit axis. -/
abbrev c1 : List (HloOp τ sig (Elt F)) :=
  [ unary main_arg0 main_v0 (Host.log : (⟨S3x2048x1024x7, .f32⟩ : BufTy).Contents (Elt F) → (⟨S3x2048x1024x7, .f32⟩ : BufTy).Contents (Elt F)),
    unary main_arg2 main_v1 (broadcastInDim S1x2048x1024x7 ![1, 2, 3] bcast_S2048x1024x7_S1x2048x1024x7_1_2_3 : (⟨S2048x1024x7, .f32⟩ : BufTy).Contents (Elt F) → (⟨S1x2048x1024x7, .f32⟩ : BufTy).Contents (Elt F)),
    nullary main_cst (constant S_ .f32 0x3F800000#32),
    unary main_cst main_v2 (broadcastInDim S1x2048x1024x7 ![] bcast_S_S1x2048x1024x7 : (⟨S_, .f32⟩ : BufTy).Contents (Elt F) → (⟨S1x2048x1024x7, .f32⟩ : BufTy).Contents (Elt F)),
    binary main_v2 main_v1 main_v3 (subf : (⟨S1x2048x1024x7, .f32⟩ : BufTy).Contents (Elt F) → (⟨S1x2048x1024x7, .f32⟩ : BufTy).Contents (Elt F) → (⟨S1x2048x1024x7, .f32⟩ : BufTy).Contents (Elt F)),
    unary main_v3 main_v4 (broadcastInDim S3x2048x1024x7 ![0, 1, 2, 3] bcast_S1x2048x1024x7_S3x2048x1024x7_0_1_2_3 : (⟨S1x2048x1024x7, .f32⟩ : BufTy).Contents (Elt F) → (⟨S3x2048x1024x7, .f32⟩ : BufTy).Contents (Elt F)),
    binary main_v0 main_v4 main_v5 (mulf : (⟨S3x2048x1024x7, .f32⟩ : BufTy).Contents (Elt F) → (⟨S3x2048x1024x7, .f32⟩ : BufTy).Contents (Elt F) → (⟨S3x2048x1024x7, .f32⟩ : BufTy).Contents (Elt F)),
    unary main_arg1 main_v6 ((transpose S3x2048x1024 [2, 0, 1] · transposes_S2048x1024x3_S3x2048x1024_2_0_1) : (⟨S2048x1024x3, .i32⟩ : BufTy).Contents (Elt F) → (⟨S3x2048x1024, .i32⟩ : BufTy).Contents (Elt F)),
    unary main_v6 main_v7 (broadcastInDim S3x2048x1024x1 ![0, 1, 2] bcast_S3x2048x1024_S3x2048x1024x1_0_1_2 : (⟨S3x2048x1024, .i32⟩ : BufTy).Contents (Elt F) → (⟨S3x2048x1024x1, .i32⟩ : BufTy).Contents (Elt F)) ]

/-- Operations 10 to 17: the entries of main_v7 with 7 added where they are negative, and one more trailing unit axis
    (main_call0_v5). -/
abbrev c2a : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S3x2048x1024x1, .i32⟩) main_call0_v0) (broadcastInDim S3x2048x1024x1 ![] bcast_S_S3x2048x1024x1),
    TRef.binary (TRef.of (T := ⟨S3x2048x1024x1, .i32⟩) main_v7) (TRef.of (T := ⟨S3x2048x1024x1, .i32⟩) main_call0_v0) (TRef.of (T := ⟨S3x2048x1024x1, .i1⟩) main_call0_v1) (cmpi .slt),
    TRef.nullary (TRef.of (T := ⟨S_, .i32⟩) main_call0_c_0) (constantI S_ 32 7#32),
    TRef.unary (TRef.of (T := ⟨S_, .i32⟩) main_call0_c_0) (TRef.of (T := ⟨S3x2048x1024x1, .i32⟩) main_call0_v2) (broadcastInDim S3x2048x1024x1 ![] bcast_S_S3x2048x1024x1),
    TRef.binary (TRef.of (T := ⟨S3x2048x1024x1, .i32⟩) main_v7) (TRef.of (T := ⟨S3x2048x1024x1, .i32⟩) main_call0_v2) (TRef.of (T := ⟨S3x2048x1024x1, .i32⟩) main_call0_v3) addi,
    TRef.ternary (TRef.of (T := ⟨S3x2048x1024x1, .i1⟩) main_call0_v1) (TRef.of (T := ⟨S3x2048x1024x1, .i32⟩) main_call0_v3) (TRef.of (T := ⟨S3x2048x1024x1, .i32⟩) main_v7) (TRef.of (T := ⟨S3x2048x1024x1, .i32⟩) main_call0_v4) select,
    TRef.reshape (TRef.of (T := ⟨S3x2048x1024x1, .i32⟩) main_call0_v4) (TRef.of (T := ⟨S3x2048x1024x1x1, .i32⟩) main_call0_v5) rfl shapeCasts_S3x2048x1024x1_S3x2048x1024x1x1 ]

/-- Operations 18 to 27: the mask 0 ≤ index ≤ 6 of those entries (main_call0_v12). -/
abbrev c2b : List (HloOp τ sig (Elt F)) :=
  [ TRef.nullary (TRef.of (T := ⟨S1, .i32⟩) main_call0_c_1) (constantI S1 32 6#32),
    TRef.nullary (TRef.of (T := ⟨S_, .i32⟩) main_call0_c_2) (constantI S_ 32 0#32),
    TRef.unary (TRef.of (T := ⟨S_, .i32⟩) main_call0_c_2) (TRef.of (T := ⟨S3x2048x1024x1x1, .i32⟩) main_call0_v6) (broadcastInDim S3x2048x1024x1x1 ![] bcast_S_S3x2048x1024x1x1),
    TRef.binary (TRef.of (T := ⟨S3x2048x1024x1x1, .i32⟩) main_call0_v5) (TRef.of (T := ⟨S3x2048x1024x1x1, .i32⟩) main_call0_v6) (TRef.of (T := ⟨S3x2048x1024x1x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S3x2048x1024x1x1, .i32⟩) main_call0_v9) (broadcastInDim S3x2048x1024x1x1 ![0, 1, 2, 3, 4] bcast_S1x1x1x1x1_S3x2048x1024x1x1_0_1_2_3_4),
    TRef.binary (TRef.of (T := ⟨S3x2048x1024x1x1, .i32⟩) main_call0_v5) (TRef.of (T := ⟨S3x2048x1024x1x1, .i32⟩) main_call0_v9) (TRef.of (T := ⟨S3x2048x1024x1x1, .i1⟩) main_call0_v10) (cmpi .sle),
    TRef.binary (TRef.of (T := ⟨S3x2048x1024x1x1, .i1⟩) main_call0_v7) (TRef.of (T := ⟨S3x2048x1024x1x1, .i1⟩) main_call0_v10) (TRef.of (T := ⟨S3x2048x1024x1x1, .i1⟩) main_call0_v11) andi,
    TRef.nullary (TRef.of (T := ⟨S_, .i1⟩) main_call0_c_3) (constantI S_ 1 1#1),
    TRef.binary (TRef.of (T := ⟨S3x2048x1024x1x1, .i1⟩) main_call0_v11) (TRef.of (T := ⟨S_, .i1⟩) main_call0_c_3) (TRef.of (T := ⟨S3x2048x1024x1, .i1⟩) main_call0_v12) (fun x v => Host.reduce IntOp.andi x v reducesTo_S3x2048x1024x1x1_S3x2048x1024x1_d4 h_S_) ]

/-- Operations 28 to 31: main_v5 read along its last axis at those entries, and NaN where the mask fails (main_v8). -/
abbrev c2c : List (HloOp τ sig (Elt F)) :=
  [ TRef.binary (TRef.of (T := ⟨S3x2048x1024x7, .f32⟩) main_v5) (TRef.of (T := ⟨S3x2048x1024x1x1, .i32⟩) main_call0_v5) (TRef.of (T := ⟨S3x2048x1024x1, .f32⟩) main_call0_v13) (fun x i => Host.gather gather_S3x2048x1024x7_S3x2048x1024x1x1_S3x2048x1024x1_n_3_012_012_3_4_1111 x i),
    TRef.nullary (TRef.of (T := ⟨S_, .f32⟩) main_call0_cst) (constant S_ .f32 0x7FC00000#32),
    TRef.unary (TRef.of (T := ⟨S_, .f32⟩) main_call0_cst) (TRef.of (T := ⟨S3x2048x1024x1, .f32⟩) main_call0_v14) (broadcastInDim S3x2048x1024x1 ![] bcast_S_S3x2048x1024x1),
    TRef.ternary (TRef.of (T := ⟨S3x2048x1024x1, .i1⟩) main_call0_v12) (TRef.of (T := ⟨S3x2048x1024x1, .f32⟩) main_call0_v13) (TRef.of (T := ⟨S3x2048x1024x1, .f32⟩) main_call0_v14) (TRef.of (T := ⟨S3x2048x1024x1, .f32⟩) main_v8) select ]

/-- Operations 32 to 44: main_v11 = main_v8 without its unit axis at the first 1023 positions of the last axis;
    main_v19 = (x3 at positions 1 to 1023 + 0.99 · the maximum of main_v5 over its last axis at positions 1 to 1023) − main_v11. -/
abbrev c3 : List (HloOp τ sig (Elt F)) :=
  [ reshape main_v8 main_v9 rfl shapeCasts_S3x2048x1024x1_S3x2048x1024,
    nullary main_cst_0 (constant S_ .f32 0xFF800000#32),
    binary main_v5 main_cst_0 main_v10 ((fun x v => Host.reduce FloatOps.maximumf x v reducesTo_S3x2048x1024x7_S3x2048x1024_d3 h_S_) : (⟨S3x2048x1024x7, .f32⟩ : BufTy).Contents (Elt F) → (⟨S_, .f32⟩ : BufTy).Contents (Elt F) → (⟨S3x2048x1024, .f32⟩ : BufTy).Contents (Elt F)),
    unary main_v9 main_v11 ((extractStridedSlice S3x2048x1023 ![0, 0, 0] · slices_S3x2048x1024_S3x2048x1023_0_0_0) : (⟨S3x2048x1024, .f32⟩ : BufTy).Contents (Elt F) → (⟨S3x2048x1023, .f32⟩ : BufTy).Contents (Elt F)),
    unary main_arg3 main_v12 ((extractStridedSlice S2048x1023 ![0, 1] · slices_S2048x1024_S2048x1023_0_1) : (⟨S2048x1024, .f32⟩ : BufTy).Contents (Elt F) → (⟨S2048x1023, .f32⟩ : BufTy).Contents (Elt F)),
    unary main_v12 main_v13 (broadcastInDim S1x2048x1023 ![1, 2] bcast_S2048x1023_S1x2048x1023_1_2 : (⟨S2048x1023, .f32⟩ : BufTy).Contents (Elt F) → (⟨S1x2048x1023, .f32⟩ : BufTy).Contents (Elt F)),
    unary main_v10 main_v14 ((extractStridedSlice S3x2048x1023 ![0, 0, 1] · slices_S3x2048x1024_S3x2048x1023_0_0_1) : (⟨S3x2048x1024, .f32⟩ : BufTy).Contents (Elt F) → (⟨S3x2048x1023, .f32⟩ : BufTy).Contents (Elt F)),
    nullary main_cst_1 (constant S_ .f32 0x3F7D70A4#32),
    unary main_cst_1 main_v15 (broadcastInDim S3x2048x1023 ![] bcast_S_S3x2048x1023 : (⟨S_, .f32⟩ : BufTy).Contents (Elt F) → (⟨S3x2048x1023, .f32⟩ : BufTy).Contents (Elt F)),
    binary main_v15 main_v14 main_v16 (mulf : (⟨S3x2048x1023, .f32⟩ : BufTy).Contents (Elt F) → (⟨S3x2048x1023, .f32⟩ : BufTy).Contents (Elt F) → (⟨S3x2048x1023, .f32⟩ : BufTy).Contents (Elt F)),
    unary main_v13 main_v17 (broadcastInDim S3x2048x1023 ![0, 1, 2] bcast_S1x2048x1023_S3x2048x1023_0_1_2 : (⟨S1x2048x1023, .f32⟩ : BufTy).Contents (Elt F) → (⟨S3x2048x1023, .f32⟩ : BufTy).Contents (Elt F)),
    binary main_v17 main_v16 main_v18 (addf : (⟨S3x2048x1023, .f32⟩ : BufTy).Contents (Elt F) → (⟨S3x2048x1023, .f32⟩ : BufTy).Contents (Elt F) → (⟨S3x2048x1023, .f32⟩ : BufTy).Contents (Elt F)),
    binary main_v18 main_v11 main_v19 (subf : (⟨S3x2048x1023, .f32⟩ : BufTy).Contents (Elt F) → (⟨S3x2048x1023, .f32⟩ : BufTy).Contents (Elt F) → (⟨S3x2048x1023, .f32⟩ : BufTy).Contents (Elt F)) ]

/-- Operations 45 to 55: main_v19 clipped to [−1, 1] and negated; main_v11 and that value each with a leading unit
    axis (main_v22, main_v23). -/
abbrev c4 : List (HloOp τ sig (Elt F)) :=
  [ nullary main_cst_2 (constant S_ .f32 0xBF800000#32),
    nullary main_cst_3 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S3x2048x1023, .f32⟩) main_call1_v1) (broadcastInDim S3x2048x1023 ![] bcast_S_S3x2048x1023),
    TRef.binary (TRef.of (T := ⟨S3x2048x1023, .f32⟩) main_call1_v1) (TRef.of (T := ⟨S3x2048x1023, .f32⟩) main_v19) (TRef.of (T := ⟨S3x2048x1023, .f32⟩) main_call1_v2) maximumf,
    TRef.unary (TRef.of (T := ⟨S_, .f32⟩) main_cst_3) (TRef.of (T := ⟨S_, .f32⟩) main_call1_v3) id,
    TRef.unary (TRef.of (T := ⟨S_, .f32⟩) main_call1_v3) (TRef.of (T := ⟨S3x2048x1023, .f32⟩) main_call1_v4) (broadcastInDim S3x2048x1023 ![] bcast_S_S3x2048x1023),
    TRef.binary (TRef.of (T := ⟨S3x2048x1023, .f32⟩) main_call1_v4) (TRef.of (T := ⟨S3x2048x1023, .f32⟩) main_call1_v2) (TRef.of (T := ⟨S3x2048x1023, .f32⟩) main_v20) minimumf,
    unary main_v20 main_v21 (Host.negf : (⟨S3x2048x1023, .f32⟩ : BufTy).Contents (Elt F) → (⟨S3x2048x1023, .f32⟩ : BufTy).Contents (Elt F)),
    unary main_v11 main_v22 (broadcastInDim S1x3x2048x1023 ![1, 2, 3] bcast_S3x2048x1023_S1x3x2048x1023_1_2_3 : (⟨S3x2048x1023, .f32⟩ : BufTy).Contents (Elt F) → (⟨S1x3x2048x1023, .f32⟩ : BufTy).Contents (Elt F)),
    unary main_v21 main_v23 (broadcastInDim S1x3x2048x1023 ![1, 2, 3] bcast_S3x2048x1023_S1x3x2048x1023_1_2_3 : (⟨S3x2048x1023, .f32⟩ : BufTy).Contents (Elt F) → (⟨S1x3x2048x1023, .f32⟩ : BufTy).Contents (Elt F)) ]

/-- Operation 56: the two stacked along the leading axis (main_v24). -/
abbrev c5 : List (HloOp τ sig (Elt F)) :=
  [ binary main_v22 main_v23 main_v24 ((fun a b => concatenate S2x3x2048x1023 0 [⟨S1x3x2048x1023, a⟩, ⟨S1x3x2048x1023, b⟩] concatenates_S1x3x2048x1023_S1x3x2048x1023_S2x3x2048x1023_d0) : (⟨S1x3x2048x1023, .f32⟩ : BufTy).Contents (Elt F) → (⟨S1x3x2048x1023, .f32⟩ : BufTy).Contents (Elt F) → (⟨S2x3x2048x1023, .f32⟩ : BufTy).Contents (Elt F)) ]

set_option maxRecDepth 8192 in
/-- The operation list is the seven stretches in a row. -/
theorem ops_eq : (ValueP.ops : List (HloOp τ sig (Elt F))) = c1 ++ c2a ++ c2b ++ c2c ++ c3 ++ c4 ++ c5 := rfl

variable (V : Valuation τ sig (Elt F))

/-! ### Stretch 1 -/

theorem c1_v5 :
    after (c1 (F := F)) V (Proc.devRef .tc main_v5)
      = ReadP.val_main_v5 (F := F) (V (Proc.devRef .tc main_arg0)) (V (Proc.devRef .tc main_arg2)) := by
  after_results
  rfl

theorem c1_v7 :
    after (c1 (F := F)) V (Proc.devRef .tc main_v7) = ReadP.val_main_v7 (F := F) (V (Proc.devRef .tc main_arg1)) := by
  after_results
  rfl

theorem c1_arg3 : after (c1 (F := F)) V (Proc.devRef .tc main_arg3) = V (Proc.devRef .tc main_arg3) := by
  after_results

/-! ### Stretch 2, in three parts -/

theorem c2a_i5 (x1 : (⟨S2048x1024x3, .i32⟩ : BufTy).Contents (Elt F))
    (h7 : V (Proc.devRef .tc main_v7) = ReadP.val_main_v7 (F := F) x1) :
    after (c2a (F := F)) V (Proc.devRef .tc main_call0_v5) = ReadP.val_main_call0_v5 (F := F) x1 := by
  after_results
  rw [h7]
  rfl

theorem c2a_v5 : after (c2a (F := F)) V (Proc.devRef .tc main_v5) = V (Proc.devRef .tc main_v5) := by
  after_results

theorem c2a_arg3 : after (c2a (F := F)) V (Proc.devRef .tc main_arg3) = V (Proc.devRef .tc main_arg3) := by
  after_results

theorem c2b_m12 (x1 : (⟨S2048x1024x3, .i32⟩ : BufTy).Contents (Elt F))
    (hi5 : V (Proc.devRef .tc main_call0_v5) = ReadP.val_main_call0_v5 (F := F) x1) :
    after (c2b (F := F)) V (Proc.devRef .tc main_call0_v12) = ReadP.val_main_call0_v12 (F := F) x1 := by
  after_results
  simp only [TRef.ofBuf, TRef.toBuf, cast_eq]
  rw [hi5]
  rfl

theorem c2b_i5 : after (c2b (F := F)) V (Proc.devRef .tc main_call0_v5) = V (Proc.devRef .tc main_call0_v5) := by
  after_results

theorem c2b_v5 : after (c2b (F := F)) V (Proc.devRef .tc main_v5) = V (Proc.devRef .tc main_v5) := by
  after_results

theorem c2b_arg3 : after (c2b (F := F)) V (Proc.devRef .tc main_arg3) = V (Proc.devRef .tc main_arg3) := by
  after_results

theorem c2c_v8 (x0 : (⟨S3x2048x1024x7, .f32⟩ : BufTy).Contents (Elt F)) (x1 : (⟨S2048x1024x3, .i32⟩ : BufTy).Contents (Elt F)) (x2 : (⟨S2048x1024x7, .f32⟩ : BufTy).Contents (Elt F))
    (h5 : V (Proc.devRef .tc main_v5) = ReadP.val_main_v5 (F := F) x0 x2)
    (hi5 : V (Proc.devRef .tc main_call0_v5) = ReadP.val_main_call0_v5 (F := F) x1)
    (hm12 : V (Proc.devRef .tc main_call0_v12) = ReadP.val_main_call0_v12 (F := F) x1) :
    after (c2c (F := F)) V (Proc.devRef .tc main_v8) = ReadP.val_main_v8 (F := F) x0 x1 x2 := by
  after_results
  simp only [TRef.ofBuf, TRef.toBuf, cast_eq]
  rw [h5, hi5, hm12]
  rfl

theorem c2c_v5 : after (c2c (F := F)) V (Proc.devRef .tc main_v5) = V (Proc.devRef .tc main_v5) := by
  after_results

theorem c2c_arg3 : after (c2c (F := F)) V (Proc.devRef .tc main_arg3) = V (Proc.devRef .tc main_arg3) := by
  after_results

/-! ### Stretch 3 -/

theorem c3_v11 (x0 : (⟨S3x2048x1024x7, .f32⟩ : BufTy).Contents (Elt F)) (x1 : (⟨S2048x1024x3, .i32⟩ : BufTy).Contents (Elt F)) (x2 : (⟨S2048x1024x7, .f32⟩ : BufTy).Contents (Elt F))
    (h8 : V (Proc.devRef .tc main_v8) = ReadP.val_main_v8 (F := F) x0 x1 x2) :
    after (c3 (F := F)) V (Proc.devRef .tc main_v11) = ReadP.val_main_v11 (F := F) x0 x1 x2 := by
  after_results
  rw [h8]
  rfl

theorem c3_v19 (x0 : (⟨S3x2048x1024x7, .f32⟩ : BufTy).Contents (Elt F)) (x1 : (⟨S2048x1024x3, .i32⟩ : BufTy).Contents (Elt F)) (x2 : (⟨S2048x1024x7, .f32⟩ : BufTy).Contents (Elt F)) (x3 : (⟨S2048x1024, .f32⟩ : BufTy).Contents (Elt F))
    (h8 : V (Proc.devRef .tc main_v8) = ReadP.val_main_v8 (F := F) x0 x1 x2)
    (h5 : V (Proc.devRef .tc main_v5) = ReadP.val_main_v5 (F := F) x0 x2)
    (h3 : V (Proc.devRef .tc main_arg3) = x3) :
    after (c3 (F := F)) V (Proc.devRef .tc main_v19) = ReadP.val_main_v19 (F := F) x0 x1 x2 x3 := by
  after_results
  rw [h8, h5, h3]
  rfl

/-! ### Stretch 4 -/

theorem c4_v22 (x0 : (⟨S3x2048x1024x7, .f32⟩ : BufTy).Contents (Elt F)) (x1 : (⟨S2048x1024x3, .i32⟩ : BufTy).Contents (Elt F)) (x2 : (⟨S2048x1024x7, .f32⟩ : BufTy).Contents (Elt F))
    (h11 : V (Proc.devRef .tc main_v11) = ReadP.val_main_v11 (F := F) x0 x1 x2) :
    after (c4 (F := F)) V (Proc.devRef .tc main_v22) = ReadP.val_main_v22 (F := F) x0 x1 x2 := by
  after_results
  rw [h11]
  rfl

theorem c4_v23 (x0 : (⟨S3x2048x1024x7, .f32⟩ : BufTy).Contents (Elt F)) (x1 : (⟨S2048x1024x3, .i32⟩ : BufTy).Contents (Elt F)) (x2 : (⟨S2048x1024x7, .f32⟩ : BufTy).Contents (Elt F)) (x3 : (⟨S2048x1024, .f32⟩ : BufTy).Contents (Elt F))
    (h19 : V (Proc.devRef .tc main_v19) = ReadP.val_main_v19 (F := F) x0 x1 x2 x3) :
    after (c4 (F := F)) V (Proc.devRef .tc main_v23) = ReadP.val_main_v23 (F := F) x0 x1 x2 x3 := by
  after_results
  rw [h19]
  rfl

/-! ### Stretch 5 -/

theorem c5_v24 (x0 : (⟨S3x2048x1024x7, .f32⟩ : BufTy).Contents (Elt F)) (x1 : (⟨S2048x1024x3, .i32⟩ : BufTy).Contents (Elt F)) (x2 : (⟨S2048x1024x7, .f32⟩ : BufTy).Contents (Elt F)) (x3 : (⟨S2048x1024, .f32⟩ : BufTy).Contents (Elt F))
    (h22 : V (Proc.devRef .tc main_v22) = ReadP.val_main_v22 (F := F) x0 x1 x2)
    (h23 : V (Proc.devRef .tc main_v23) = ReadP.val_main_v23 (F := F) x0 x1 x2 x3) :
    after (c5 (F := F)) V (Proc.devRef .tc main_v24) = ReadP.val_main_v24 (F := F) x0 x1 x2 x3 := by
  after_results
  rw [h22, h23]
  rfl

/-! ### The fold is the last stage -/

theorem result_eq (m : (ℓ : Loc nD τ sig) → Buf (Elt F) ℓ) (c : Dev nD) :
    after ValueP.ops (launchContents m c) (Proc.devRef .tc main_v24)
      = ReadP.val_main_v24 (F := F) (m ((c.tc : Thread nD τ).loc main_arg0)) (m ((c.tc : Thread nD τ).loc main_arg1))
          (m ((c.tc : Thread nD τ).loc main_arg2)) (m ((c.tc : Thread nD τ).loc main_arg3)) := by
  rw [ops_eq, after_append, after_append, after_append, after_append, after_append, after_append]
  have h5 := c1_v5 (F := F) (launchContents m c)
  have h7 := c1_v7 (F := F) (launchContents m c)
  have h3 := c1_arg3 (F := F) (launchContents m c)
  have hi5 := c2a_i5 (F := F) (after c1 (launchContents m c)) _ h7
  have h5a := (c2a_v5 (F := F) (after c1 (launchContents m c))).trans h5
  have h3a := (c2a_arg3 (F := F) (after c1 (launchContents m c))).trans h3
  have hm12 := c2b_m12 (F := F) (after c2a (after c1 (launchContents m c))) _ hi5
  have hi5b := (c2b_i5 (F := F) (after c2a (after c1 (launchContents m c)))).trans hi5
  have h5b := (c2b_v5 (F := F) (after c2a (after c1 (launchContents m c)))).trans h5a
  have h3b := (c2b_arg3 (F := F) (after c2a (after c1 (launchContents m c)))).trans h3a
  have h8 := c2c_v8 (F := F) (after c2b (after c2a (after c1 (launchContents m c)))) _ _ _ h5b hi5b hm12
  have h5c := (c2c_v5 (F := F) (after c2b (after c2a (after c1 (launchContents m c))))).trans h5b
  have h3c := (c2c_arg3 (F := F) (after c2b (after c2a (after c1 (launchContents m c))))).trans h3b
  have h11 := c3_v11 (F := F) (after c2c (after c2b (after c2a (after c1 (launchContents m c))))) _ _ _ h8
  have h19 := c3_v19 (F := F) (after c2c (after c2b (after c2a (after c1 (launchContents m c))))) _ _ _ _ h8 h5c h3c
  have h22 := c4_v22 (F := F) (after c3 (after c2c (after c2b (after c2a (after c1 (launchContents m c)))))) _ _ _ h11
  have h23 := c4_v23 (F := F) (after c3 (after c2c (after c2b (after c2a (after c1 (launchContents m c)))))) _ _ _ _ h19
  exact c5_v24 (F := F) (after c4 (after c3 (after c2c (after c2b (after c2a (after c1 (launchContents m c))))))) _ _ _ _ h22 h23

/-- On every device, for any float values, from any memory with zero counters: every weakly fair execution of
    @main terminates with the result buffer at the last stage of the four arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = ReadP.val_main_v24 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_eq m c), (h c).2⟩) (ValueP.run m ρ)

end Cert.ReferenceIdeal.Stages

end
-- ==== Proof.RefCur.lean ====
/-
  The reference program's value of the action taken is the specification's `cur`.

  The reference reads the masked log-probabilities q[n,b,t,·] at the label word lab[b,t,n] through
  a gather whose start index is first wrapped (a negative word has 7 added), then tested for the
  range 0..6 (outside it the result is a NaN word), then clamped into 0..6 by the gather itself.
  For a label word whose value is at most 6 none of the three does anything: the sign test fails,
  the range test succeeds, the clamp is the identity; so the gathered element is q at the label.
-/
import proofs.«405629_j74689481277494_2_alg».proof.Proof.RefRead
import proofs.«405629_j74689481277494_2_alg».proof.Proof.Spec
import Idealize.ShloMosaic.Lib.ValueIdx
import Idealize.ShloMosaic.Lib.Pipeline.Value
import Idealize.ShloMosaic.Lib.WordArith
import Idealize.ShloMosaic.Lib.StableHlo.Predicate
import Idealize.ShloMosaic.PureOps.Reduce

noncomputable section

namespace Cert.QLoss

open Cert.ReferenceIdeal Idealize.ShloMosaic Idealize.ShloMosaic.ValueIdx

/-! ## Words: a word of value at most 6 against the constants 0 and 6 -/

/-- A word of value at most 6 is not negative. -/
theorem slt_zero_of_le_six (w : BitVec 32) (hw : w.toNat ≤ 6) : IntOp.cmpi .slt w 0#32 = 0#1 :=
  eq_zero_of_ne_one fun h =>
    Nat.not_lt_zero w.toNat
      ((StableHlo.Predicate.slt_iff_toNat (a := w) (b := 0#32) (by omega) (by decide)).1 h)

/-- A word of value at most 6 is at least 0 as a signed word. -/
theorem sge_zero_of_le_six (w : BitVec 32) (hw : w.toNat ≤ 6) : IntOp.cmpi .sge w 0#32 = 1#1 :=
  (StableHlo.Predicate.sge_iff_toNat (a := w) (b := 0#32) (by omega) (by decide)).2 (Nat.zero_le _)

/-- A word of value at most 6 is at most 6 as a signed word. -/
theorem sle_six_of_le_six (w : BitVec 32) (hw : w.toNat ≤ 6) : IntOp.cmpi .sle w 6#32 = 1#1 :=
  (StableHlo.Predicate.sle_iff_toNat (a := w) (b := 6#32) (by omega) (by decide)).2 hw

/-- Read signed, a word of value at most 6 is its value, which the clamp to [0, 6] keeps; and it
    is its own residue modulo 7. -/
theorem clamp_of_le_six (w : BitVec 32) (hw : w.toNat ≤ 6) : min w.toInt.toNat (7 - 1) = w.toNat % 7 := by
  rw [StableHlo.Predicate.toInt_eq_toNat_of_lt (a := w) (by omega), Int.toNat_natCast]
  omega

section
variable (x0 : (⟨S3x2048x1024x7, .f32⟩ : BufTy).Contents (Elt Ideal))
  (x1 : (⟨S2048x1024x3, .i32⟩ : BufTy).Contents (Elt Ideal))
  (x2 : (⟨S2048x1024x7, .f32⟩ : BufTy).Contents (Elt Ideal))

/-! ## The masked log-probabilities -/

/-- The product stage at (n, b, t, a) is the specification's q: the logarithm of the probability
    times one less the mask, the mask and the constant 1 broadcast over the heads. -/
theorem ref_q_apply (n : Fin 3) (b : Fin 2048) (t : Fin 1024) (a : Fin 7) :
    ReadP.val_main_v5 (F := Ideal) x0 x2 (ix4 n b t a) = q x0 x2 n b t a := by
  rewrite [ReadP.val_main_v5_apply, ReadP.val_main_v0_apply, ReadP.val_main_v4_apply, ReadP.val_main_v3_apply,
    ReadP.val_main_v2_apply, ReadP.val_main_cst_apply, ReadP.val_main_v1_apply]
  have h : ReadP.idx_main_v1 (ReadP.idx_main_v4 (ix4 n b t a)) = ix3 b t a :=
    funext fun c => Fin.ext (by match c with | ⟨0, _⟩ => rfl | ⟨1, _⟩ => rfl | ⟨2, _⟩ => rfl)
  rewrite [h]
  rfl

/-! ## The start index: the label word -/

/-- The labels transposed to [head, row, step] and given a unit axis read, at (n, b, t, ·), the
    label word of row b, step t, head n. -/
theorem ref_label_apply (n : Fin 3) (b : Fin 2048) (t : Fin 1024) (k : Fin 1) :
    ReadP.val_main_v7 (F := Ideal) x1 (ix4 n b t k) = x1 (ix3 b t n) := by
  rw [ReadP.val_main_v7_apply, ReadP.val_main_v6_apply]
  have h : ReadP.idx_main_v6 (ReadP.idx_main_v7 (ix4 n b t k)) = ix3 b t n :=
    funext fun c => Fin.ext (by match c with | ⟨0, _⟩ => rfl | ⟨1, _⟩ => rfl | ⟨2, _⟩ => rfl)
  rw [h]

/-- The wrapped index (7 added to a negative word) is the label word itself when that is at
    most 6. -/
theorem ref_wrapped_apply (n : Fin 3) (b : Fin 2048) (t : Fin 1024) (k : Fin 1)
    (hw : (x1 (ix3 b t n)).toNat ≤ 6) :
    ReadP.val_main_call0_v4 (F := Ideal) x1 (ix4 n b t k) = x1 (ix3 b t n) := by
  rw [ReadP.val_main_call0_v4_apply, ReadP.val_main_call0_v1_apply, ReadP.val_main_call0_v0_apply,
    ReadP.val_main_call0_c_apply, ref_label_apply, slt_zero_of_le_six _ hw, select_zero]

/-- The same after the reshape that adds the index vector's unit axis. -/
theorem ref_start_apply (n : Fin 3) (b : Fin 2048) (t : Fin 1024) (k3 k4 : Fin 1)
    (hw : (x1 (ix3 b t n)).toNat ≤ 6) :
    ReadP.val_main_call0_v5 (F := Ideal) x1 (ix5 n b t k3 k4) = x1 (ix3 b t n) := by
  rw [ReadP.val_main_call0_v5_apply]
  have h : ReadP.idx_main_call0_v5 (ix5 n b t k3 k4) = ix4 n b t (0 : Fin 1) :=
    funext fun c => Fin.ext (by
      have hn := n.isLt
      have hb := b.isLt
      have ht := t.isLt
      have h3 := k3.isLt
      have h4 := k4.isLt
      match c with
      | ⟨0, _⟩ =>
        exact (by omega :
          ((((n.val * 2048 + b.val) * 1024 + t.val) * 1 + k3.val) * 1 + k4.val) / 2097152 = n.val)
      | ⟨1, _⟩ =>
        exact (by omega :
          ((((n.val * 2048 + b.val) * 1024 + t.val) * 1 + k3.val) * 1 + k4.val) / 1024 % 2048 = b.val)
      | ⟨2, _⟩ =>
        exact (by omega :
          ((((n.val * 2048 + b.val) * 1024 + t.val) * 1 + k3.val) * 1 + k4.val) / 1 % 1024 = t.val)
      | ⟨3, _⟩ => rfl)
  rw [h, ref_wrapped_apply x1 n b t 0 hw]

end

/-! ## The range test and its reduction over the unit axis -/

/-- A conjunction of one-bit words that are all 1, taken from 1 over any finite set, is 1. -/
theorem fold_andi_eq_one {ι : Type} (S : Finset ι) (f : ι → BitVec 1) (hf : ∀ i, f i = 1#1) :
    S.fold (IntOp.andi (w := 1)) 1#1 f = 1#1 := by
  induction S using Finset.cons_induction with
  | empty => rfl
  | cons a S ha ih =>
    rewrite [Finset.fold_cons, ih, hf a]
    decide

section
variable (x0 : (⟨S3x2048x1024x7, .f32⟩ : BufTy).Contents (Elt Ideal))
  (x1 : (⟨S2048x1024x3, .i32⟩ : BufTy).Contents (Elt Ideal))
  (x2 : (⟨S2048x1024x7, .f32⟩ : BufTy).Contents (Elt Ideal))

/-- The range test 0 ≤ index ≤ 6 succeeds at every position over a label word of value at most 6. -/
theorem ref_inrange_apply (n : Fin 3) (b : Fin 2048) (t : Fin 1024) (k3 k4 : Fin 1)
    (hw : (x1 (ix3 b t n)).toNat ≤ 6) :
    ReadP.val_main_call0_v11 (F := Ideal) x1 (ix5 n b t k3 k4) = 1#1 := by
  rewrite [ReadP.val_main_call0_v11_apply, ReadP.val_main_call0_v7_apply, ReadP.val_main_call0_v10_apply,
    ref_start_apply x1 n b t k3 k4 hw, ReadP.val_main_call0_v6_apply, ReadP.val_main_call0_c_2_apply,
    ReadP.val_main_call0_v9_apply, ReadP.val_main_call0_v8_apply, ReadP.val_main_call0_c_1_apply,
    sge_zero_of_le_six _ hw, sle_six_of_le_six _ hw]
  decide

/-- The test and-reduced over the index vector's unit axis, from the bit 1, is the bit 1 when every
    label is in range: each term of the conjunction is. -/
theorem ref_ok_apply (hlab : LabelsInRange x1) (n : Fin 3) (b : Fin 2048) (t : Fin 1024) (k : Fin 1) :
    ReadP.val_main_call0_v12 (F := Ideal) x1 (ix4 n b t k) = 1#1 := by
  have h : S3x2048x1024x1x1.Reduces [4] S3x2048x1024x1 := by decide
  unfold ReadP.val_main_call0_v12
  rewrite [Host.reduce_eq_fold_single (IntOp.andi (w := 1)) _ _ _ h, ReadP.val_main_call0_c_3_apply]
  refine fold_andi_eq_one _ _ fun k4 => ?_
  show ReadP.val_main_call0_v11 (F := Ideal) x1 (h.lift (ix4 n b t k) k4) = 1#1
  rewrite [eq_ix5 (h.lift (ix4 n b t k) k4)]
  exact ref_inrange_apply x1 _ _ _ _ _ (hlab _)

/-! ## The gather -/

/-- The gather's dimension numbers: the head, row and step axes are batching axes of operand and
    start indices alike, the action axis is collapsed and is the one the start index names, the
    index vector lies on the start indices' last axis, and every slice has size 1. -/
private abbrev gdims : GatherDims S3x2048x1024x7 S3x2048x1024x1x1 S3x2048x1024x1 :=
  gather_S3x2048x1024x7_S3x2048x1024x1x1_S3x2048x1024x1_n_3_012_012_3_4_1111

/-- The operand index the gather reads at (n, b, t, ·): the batch coordinates n, b, t on the three
    batching axes, and on the action axis the start word read signed and clamped into [0, 6], which
    for a label word of value at most 6 is the action the specification reads. -/
theorem ref_operandIdx (n : Fin 3) (b : Fin 2048) (t : Fin 1024) (k : Fin 1)
    (hw : (x1 (ix3 b t n)).toNat ≤ 6) :
    gdims.operandIdx (ix4 n b t k) (ReadP.val_main_call0_v5 (F := Ideal) x1) = ix4 n b t (act x1 n b t) := by
  have hb0 : (0 : Fin S3x2048x1024x7.rank) ∈ gdims.operandBatchingDims := by decide
  have hb1 : (1 : Fin S3x2048x1024x7.rank) ∈ gdims.operandBatchingDims := by decide
  have hb2 : (2 : Fin S3x2048x1024x7.rank) ∈ gdims.operandBatchingDims := by decide
  have hb3 : (3 : Fin S3x2048x1024x7.rank) ∉ gdims.operandBatchingDims := by decide
  have hc3 : (3 : Fin S3x2048x1024x7.rank) ∈ gdims.collapsedSliceDims := by decide
  have hm3 : (3 : Fin S3x2048x1024x7.rank) ∈ gdims.startIndexMap := by decide
  -- a batching axis: no start, no offset, the result's batch coordinate
  have e0 : gdims.start (ix4 n b t k) (ReadP.val_main_call0_v5 (F := Ideal) x1) 0
      + gdims.batchCoord (ix4 n b t k) 0 + gdims.offCoord (ix4 n b t k) 0 = n.val := by
    rewrite [gdims.start_batching _ _ 0 hb0,
      gdims.offCoord_eq_zero _ 0 (fun h => ((gdims.mem_sKept 0).1 h).2 hb0), Nat.zero_add, Nat.add_zero]
    rfl
  have e1 : gdims.start (ix4 n b t k) (ReadP.val_main_call0_v5 (F := Ideal) x1) 1
      + gdims.batchCoord (ix4 n b t k) 1 + gdims.offCoord (ix4 n b t k) 1 = b.val := by
    rewrite [gdims.start_batching _ _ 1 hb1,
      gdims.offCoord_eq_zero _ 1 (fun h => ((gdims.mem_sKept 1).1 h).2 hb1), Nat.zero_add, Nat.add_zero]
    rfl
  have e2 : gdims.start (ix4 n b t k) (ReadP.val_main_call0_v5 (F := Ideal) x1) 2
      + gdims.batchCoord (ix4 n b t k) 2 + gdims.offCoord (ix4 n b t k) 2 = t.val := by
    rewrite [gdims.start_batching _ _ 2 hb2,
      gdims.offCoord_eq_zero _ 2 (fun h => ((gdims.mem_sKept 2).1 h).2 hb2), Nat.zero_add, Nat.add_zero]
    rfl
  -- the start indices are read at (n, b, t, ·, ·)
  have hsi : ∀ c, gdims.siIdx (ix4 n b t k) c = ix5 n b t k (0 : Fin 1) := fun c =>
    funext fun e => Fin.ext (by
      have hc : c.val < 1 := c.isLt
      match e with
      | ⟨0, _⟩ => rfl
      | ⟨1, _⟩ => rfl
      | ⟨2, _⟩ => rfl
      | ⟨3, _⟩ => rfl
      | ⟨4, _⟩ => show c.val = 0; omega)
  -- the collapsed, start-indexed axis: the clamped start word, no batch coordinate, no offset
  have e3 : gdims.start (ix4 n b t k) (ReadP.val_main_call0_v5 (F := Ideal) x1) 3
      + gdims.batchCoord (ix4 n b t k) 3 + gdims.offCoord (ix4 n b t k) 3 = (act x1 n b t).val := by
    rewrite [gdims.batchCoord_eq_zero _ 3 hb3,
      gdims.offCoord_eq_zero _ 3 (fun h => ((gdims.mem_sKept 3).1 h).1 hc3)]
    show gdims.start (ix4 n b t k) (ReadP.val_main_call0_v5 (F := Ideal) x1) 3 = (act x1 n b t).val
    unfold GatherDims.start
    rewrite [dif_pos hm3, hsi, ref_start_apply x1 n b t _ _ hw]
    exact clamp_of_le_six _ hw
  exact funext fun a => Fin.ext (by
    match a with
    | ⟨0, _⟩ => exact e0
    | ⟨1, _⟩ => exact e1
    | ⟨2, _⟩ => exact e2
    | ⟨3, _⟩ => exact e3)

/-- The gathered element at (n, b, t, ·) is q at the action the label names. -/
theorem ref_gather_apply (n : Fin 3) (b : Fin 2048) (t : Fin 1024) (k : Fin 1)
    (hw : (x1 (ix3 b t n)).toNat ≤ 6) :
    ReadP.val_main_call0_v13 (F := Ideal) x0 x1 x2 (ix4 n b t k) = q x0 x2 n b t (act x1 n b t) := by
  show ReadP.val_main_v5 (F := Ideal) x0 x2
    (gdims.operandIdx (ix4 n b t k) (ReadP.val_main_call0_v5 (F := Ideal) x1)) = _
  rewrite [ref_operandIdx x1 n b t k hw]
  exact ref_q_apply x0 x2 n b t _

end

/-! ## The value of the action taken -/

/-- With every label in range the reference's gathered, reshaped value at (n, b, t) is the
    specification's `cur`: the range test selects the gathered element, which is q at the label. -/
theorem ref_cur [Cert.ReferenceIdeal.Facts]
    (x0 : (⟨S3x2048x1024x7, .f32⟩ : BufTy).Contents (Elt Ideal)) (x1 : (⟨S2048x1024x3, .i32⟩ : BufTy).Contents (Elt Ideal)) (x2 : (⟨S2048x1024x7, .f32⟩ : BufTy).Contents (Elt Ideal))
    (hlab : LabelsInRange x1) (n : Fin 3) (b : Fin 2048) (t : Fin 1024) :
    ReadP.val_main_v9 (F := Ideal) x0 x1 x2 (ix3 n b t) = cur x0 x1 x2 n b t := by
  have h : ReadP.idx_main_v9 (ix3 n b t) = ix4 n b t (0 : Fin 1) :=
    funext fun c => Fin.ext (by
      have hn := n.isLt; have hb := b.isLt; have ht := t.isLt
      match c with
      | ⟨0, _⟩ =>
        show ((n.val * 2048 + b.val) * 1024 + t.val) / 2097152 = n.val
        omega
      | ⟨1, _⟩ =>
        show ((n.val * 2048 + b.val) * 1024 + t.val) / 1024 % 2048 = b.val
        omega
      | ⟨2, _⟩ =>
        show ((n.val * 2048 + b.val) * 1024 + t.val) / 1 % 1024 = t.val
        omega
      | ⟨3, _⟩ => rfl)
  rewrite [ReadP.val_main_v9_apply, h, ReadP.val_main_v8_apply, ref_ok_apply x1 hlab, select_one,
    ref_gather_apply x0 x1 x2 n b t 0 (hlab _)]
  rfl

end Cert.QLoss

end
-- ==== Proof.RefValue.lean ====
/-
  The reference program's last stage is the specification's result, given that its stage holding the
  value of the action taken is the specification's `cur`.

  The reference computes, elementwise on the extended reals,
    q      = log o · (1 − mk)                       (the mask broadcast over the three heads),
    best   = the maximum of q over the seven actions, folded from −∞,
    bell   = (rw[·, t+1] + γ · best[·, t+1]) − cur[·, t]      for t < 1023,
  and concatenates, along a new leading axis of extent 2, the first 1023 steps of `cur` with the
  negation of `bell` clipped to [−1, 1]. Each stage is read at an index built from its coordinates; the
  index maps of the slices and broadcasts send such an index to one with coordinates t or t + 1.
-/
import proofs.«405629_j74689481277494_2_alg».proof.Proof.RefRead
import proofs.«405629_j74689481277494_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.QLoss

open Cert.ReferenceIdeal Idealize.ShloMosaic Idealize.ShloMosaic.ValueIdx

/-- The product stage at (n, b, t, a) is the masked log-probability q[n, b, t, a]: the logarithm of the
    probability there, times one minus the mask at (b, t, a) (the mask's two broadcasts only add and then
    repeat the head axis). -/
theorem ref_q
    (x0 : (⟨S3x2048x1024x7, .f32⟩ : BufTy).Contents (Elt Ideal)) (x2 : (⟨S2048x1024x7, .f32⟩ : BufTy).Contents (Elt Ideal))
    (n : Fin 3) (b : Fin 2048) (t : Fin 1024) (a : Fin 7) :
    ReadP.val_main_v5 (F := Ideal) x0 x2 (ix4 n b t a) = q x0 x2 n b t a := by
  rw [ReadP.val_main_v5_apply, ReadP.val_main_v0_apply, ReadP.val_main_v4_apply, ReadP.val_main_v3_apply,
    ReadP.val_main_v2_apply, ReadP.val_main_cst_apply, ReadP.val_main_v1_apply]
  have hi : ReadP.idx_main_v1 (ReadP.idx_main_v4 (ix4 n b t a)) = ix3 b t a :=
    funext fun c => Fin.ext (by match c with | ⟨0, _⟩ => rfl | ⟨1, _⟩ => rfl | ⟨2, _⟩ => rfl)
  rw [hi]
  rfl

/-- The index (n, b, t) of the reduced array with the action coordinate k put back on the last axis is
    (n, b, t, k). -/
theorem lift_ix3 (h : S3x2048x1024x7.Reduces [3] S3x2048x1024) (n : Fin 3) (b : Fin 2048) (t : Fin 1024)
    (k : Fin (S3x2048x1024x7.size 3)) : h.lift (ix3 n b t) k = ix4 n b t (⟨k.val, k.isLt⟩ : Fin 7) := by
  funext c; apply Fin.ext
  fin_cases c <;> rfl

/-- The reduce stage at (n, b, t) is `best`: a maximum is commutative and associative, so the reduce over
    the action axis is the fold of `max` from −∞ over the seven coordinates of that axis, and the folded
    function is q[n, b, t, ·]. -/
theorem ref_best [Cert.ReferenceIdeal.Facts]
    (x0 : (⟨S3x2048x1024x7, .f32⟩ : BufTy).Contents (Elt Ideal)) (x2 : (⟨S2048x1024x7, .f32⟩ : BufTy).Contents (Elt Ideal))
    (n : Fin 3) (b : Fin 2048) (t : Fin 1024) :
    ReadP.val_main_v10 (F := Ideal) x0 x2 (ix3 n b t) = best x0 x2 n b t := by
  have h : S3x2048x1024x7.Reduces [3] S3x2048x1024 := by decide
  unfold ReadP.val_main_v10
  rw [Host.reduce_eq_fold_single FloatOps.maximumf _ _ _ h _]
  have hf : (ReadP.val_main_v5 (F := Ideal) x0 x2 ∘ h.lift (ix3 n b t)) = fun k : Fin 7 => q x0 x2 n b t k :=
    funext fun k => by
      show ReadP.val_main_v5 (F := Ideal) x0 x2 (h.lift (ix3 n b t) k) = _
      rw [lift_ix3 h n b t k]
      exact ref_q x0 x2 n b t ⟨k.val, k.isLt⟩
  exact congrArg (fun f => Finset.fold max negInf f (Finset.univ : Finset (Fin 7))) hf

/-- The subtraction stage at (n, b, t), t < 1023, is the Bellman error: the reward and the best value are
    read one step later (their slices start at step 1), the current value at step t itself. -/
theorem ref_bell [Cert.ReferenceIdeal.Facts]
    (x0 : (⟨S3x2048x1024x7, .f32⟩ : BufTy).Contents (Elt Ideal)) (x1 : (⟨S2048x1024x3, .i32⟩ : BufTy).Contents (Elt Ideal))
    (x2 : (⟨S2048x1024x7, .f32⟩ : BufTy).Contents (Elt Ideal)) (x3 : (⟨S2048x1024, .f32⟩ : BufTy).Contents (Elt Ideal))
    (hcur : ∀ (n : Fin 3) (b : Fin 2048) (t : Fin 1024), ReadP.val_main_v9 (F := Ideal) x0 x1 x2 (ix3 n b t) = cur x0 x1 x2 n b t)
    (n : Fin 3) (b : Fin 2048) (t : Fin 1023) :
    ReadP.val_main_v19 (F := Ideal) x0 x1 x2 x3 (ix3 n b t) = bell x0 x1 x2 x3 n b t := by
  rw [ReadP.val_main_v19_apply, ReadP.val_main_v18_apply, ReadP.val_main_v17_apply, ReadP.val_main_v13_apply,
    ReadP.val_main_v12_apply, ReadP.val_main_v16_apply, ReadP.val_main_v15_apply, ReadP.val_main_cst_1_apply,
    ReadP.val_main_v14_apply, ReadP.val_main_v11_apply]
  have h12 : ReadP.idx_main_v12 (ReadP.idx_main_v13 (ReadP.idx_main_v17 (ix3 n b t))) = ix2 b (next t) :=
    funext fun c => Fin.ext (by match c with | ⟨0, _⟩ => rfl | ⟨1, _⟩ => exact Nat.add_comm 1 t.val)
  have h14 : ReadP.idx_main_v14 (ix3 n b t) = ix3 n b (next t) :=
    funext fun c => Fin.ext (by match c with | ⟨0, _⟩ => rfl | ⟨1, _⟩ => rfl | ⟨2, _⟩ => exact Nat.add_comm 1 t.val)
  have h11 : ReadP.idx_main_v11 (ix3 n b t) = ix3 n b (here t) :=
    funext fun c => Fin.ext (by match c with | ⟨0, _⟩ => rfl | ⟨1, _⟩ => rfl | ⟨2, _⟩ => rfl)
  rw [h12, h14, h11, ref_best x0 x2 n b (next t), hcur n b (here t)]
  rfl

/-- The last stage is the specification's result. At (s, n, b, t) the concatenation reads its first
    piece when s = 0, the current value at step t, and its second piece when s = 1, the negated minimum of
    1 and the maximum of −1 and the Bellman error. -/
theorem ref_value_of_cur [Cert.ReferenceIdeal.Facts]
    (x0 : (⟨S3x2048x1024x7, .f32⟩ : BufTy).Contents (Elt Ideal)) (x1 : (⟨S2048x1024x3, .i32⟩ : BufTy).Contents (Elt Ideal))
    (x2 : (⟨S2048x1024x7, .f32⟩ : BufTy).Contents (Elt Ideal)) (x3 : (⟨S2048x1024, .f32⟩ : BufTy).Contents (Elt Ideal))
    (hcur : ∀ (n : Fin 3) (b : Fin 2048) (t : Fin 1024), ReadP.val_main_v9 (F := Ideal) x0 x1 x2 (ix3 n b t) = cur x0 x1 x2 n b t) :
    ReadP.val_main_v24 (F := Ideal) x0 x1 x2 x3 = result x0 x1 x2 x3 := by
  funext j
  obtain ⟨s, n, b, t, rfl⟩ : ∃ s n b t, j = ix4 s n b t := ⟨j 0, j 1, j 2, j 3, eq_ix4 j⟩
  rw [result_ix4]
  unfold resAt ReadP.val_main_v24
  match s with
  | ⟨0, hs⟩ =>
    rw [if_pos rfl]
    refine (concatenate_pair_apply_left (t := S2x3x2048x1023) (s₁ := S1x3x2048x1023) (s₂ := S1x3x2048x1023) 0
      (ReadP.val_main_v22 (F := Ideal) x0 x1 x2) (ReadP.val_main_v23 (F := Ideal) x0 x1 x2 x3)
      Cert.ReferenceIdeal.Gen.concatenates_S1x3x2048x1023_S1x3x2048x1023_S2x3x2048x1023_d0
      (ix4 (⟨0, hs⟩ : Fin 2) n b t) rfl (ix4 (⟨0, Nat.one_pos⟩ : Fin 1) n b t)
      (fun c => by match c with | ⟨0, _⟩ => rfl | ⟨1, _⟩ => rfl | ⟨2, _⟩ => rfl | ⟨3, _⟩ => rfl)).trans ?_
    rw [ReadP.val_main_v22_apply, ReadP.val_main_v11_apply]
    have h11 : ReadP.idx_main_v11 (ReadP.idx_main_v22 (ix4 (⟨0, Nat.one_pos⟩ : Fin 1) n b t)) = ix3 n b (here t) :=
      funext fun c => Fin.ext (by match c with | ⟨0, _⟩ => rfl | ⟨1, _⟩ => rfl | ⟨2, _⟩ => rfl)
    rw [h11, hcur n b (here t)]
  | ⟨1, hs⟩ =>
    rw [if_neg (show ¬ ((⟨1, hs⟩ : Fin 2).val = 0) from Nat.one_ne_zero)]
    refine (concatenate_pair_apply_right (t := S2x3x2048x1023) (s₁ := S1x3x2048x1023) (s₂ := S1x3x2048x1023) 0
      (ReadP.val_main_v22 (F := Ideal) x0 x1 x2) (ReadP.val_main_v23 (F := Ideal) x0 x1 x2 x3)
      Cert.ReferenceIdeal.Gen.concatenates_S1x3x2048x1023_S1x3x2048x1023_S2x3x2048x1023_d0
      (ix4 (⟨1, hs⟩ : Fin 2) n b t) rfl rfl (ix4 (⟨0, Nat.one_pos⟩ : Fin 1) n b t)
      (fun c => by
        match c with
        | ⟨0, _⟩ => exact fun hc => absurd rfl hc
        | ⟨1, _⟩ => exact fun _ => rfl
        | ⟨2, _⟩ => exact fun _ => rfl
        | ⟨3, _⟩ => exact fun _ => rfl) rfl).trans ?_
    rw [ReadP.val_main_v23_apply, ReadP.val_main_v21_apply, ReadP.val_main_v20_apply, ReadP.val_main_call1_v4_apply,
      ReadP.val_main_call1_v3_apply, ReadP.val_main_cst_3_apply, ReadP.val_main_call1_v2_apply,
      ReadP.val_main_call1_v1_apply, ReadP.val_main_call1_v0_apply, ReadP.val_main_cst_2_apply]
    have h23 : ReadP.idx_main_v23 (ix4 (⟨0, Nat.one_pos⟩ : Fin 1) n b t) = ix3 n b t :=
      funext fun c => Fin.ext (by match c with | ⟨0, _⟩ => rfl | ⟨1, _⟩ => rfl | ⟨2, _⟩ => rfl)
    rw [h23, ref_bell x0 x1 x2 x3 hcur n b t]
    rfl

end Cert.QLoss

end
-- ==== Proof.lean ====
/-
  The certificate's claim: the Q-loss kernel against its reference, over the extended reals.

  Both programs compute, for 3 heads, 2048 rows, 1024 steps and 7 actions, the masked log-probability
  q = log o · (1 − mask), the value of the labelled action, the best value over the actions, and the
  clipped, negated Bellman error between consecutive steps (Proof/Spec.lean). The kernel finds the
  labelled action's value as a sum of q against a one-hot vector of the label clamped to [0, 6]; the
  reference gathers it at the label, wrapping a negative label and answering a fill value out of range.
  For labels between 0 and 6 — which the precondition states — the clamp, the wrap and the range test
  do nothing, a product with 0 is 0 and with 1 the factor itself for every extended real, infinite
  ones included, and a sum of zeros around one term is that term; so the two values are one, with no
  finiteness needed. The negation is spelt 0 − x by the kernel and −x by the reference: the same.

  The kernel's side: Proof/KernelHost.lean (the re-laid arguments the region finds), Proof/KernelPayload.lean
  (the stored value at an index), Proof/KernelValue.lean (blocks to the whole array, and the run).
  The reference's side: Proof/RefOps.lean and Proof/RefRead.lean (its operations and stages),
  Proof/RefStages.lean (the run ends at the last stage), Proof/RefCur.lean and Proof/RefValue.lean (the
  last stage is the specification's result). Proof/PreLabels.lean reads the label range off the precondition.
-/
import proofs.«405629_j74689481277494_2_alg».proof.Defs
import proofs.«405629_j74689481277494_2_alg».proof.Proof.Gen.Kernel
import proofs.«405629_j74689481277494_2_alg».proof.Proof.Gen.Kernel.Skeleton
import proofs.«405629_j74689481277494_2_alg».proof.Proof.Gen.Kernel.Launch
import proofs.«405629_j74689481277494_2_alg».proof.Proof.Gen.Kernel.Points
import proofs.«405629_j74689481277494_2_alg».proof.Proof.Gen.Kernel.Frame
import proofs.«405629_j74689481277494_2_alg».proof.Proof.Gen.KernelIdeal
import proofs.«405629_j74689481277494_2_alg».proof.Proof.Gen.KernelIdeal.Skeleton
import proofs.«405629_j74689481277494_2_alg».proof.Proof.Gen.KernelIdeal.Launch
import proofs.«405629_j74689481277494_2_alg».proof.Proof.Gen.KernelIdeal.Points
import proofs.«405629_j74689481277494_2_alg».proof.Proof.Gen.KernelIdeal.Frame
import proofs.«405629_j74689481277494_2_alg».proof.Proof.Gen.ReferenceIdeal
import proofs.«405629_j74689481277494_2_alg».proof.Proof.Gen.Pre_finite_inputs
import proofs.«405629_j74689481277494_2_alg».proof.Proof.Gen.KernelIdeal.Value
import proofs.«405629_j74689481277494_2_alg».proof.Proof.RefOps
import proofs.«405629_j74689481277494_2_alg».proof.Proof.RefRead
import proofs.«405629_j74689481277494_2_alg».proof.Proof.Spec
import proofs.«405629_j74689481277494_2_alg».proof.Proof.PreLabels
import proofs.«405629_j74689481277494_2_alg».proof.Proof.KernelValue
import proofs.«405629_j74689481277494_2_alg».proof.Proof.RefStages
import proofs.«405629_j74689481277494_2_alg».proof.Proof.RefCur
import proofs.«405629_j74689481277494_2_alg».proof.Proof.RefValue
import Idealize.ShloMosaic.Adequacy
import Idealize.ShloMosaic.Init

noncomputable section

namespace Cert.Proof

open Idealize.ShloMosaic Idealize.SL.Sem Idealize.ShloMosaic.TcCoe Cert.QLoss

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The idealization rewrote nothing. -/
theorem preserves : Cert.preserves_Kernel_KernelIdeal := trivial

/-- From memories agreeing on the arguments both programs end at the specification's result of those
    arguments: the kernel by its blocks (KernelValue.run), the reference by its stages (Stages.run, ref_cur,
    ref_value_of_cur), each under the label range the precondition gives. -/
theorem algebraic : Cert.algebraic_KernelIdeal_ReferenceIdeal := by
  intro m ρ m' ρ' hpre hagree
  have hlab : ∀ c : Dev Cert.KernelIdeal.nD, LabelsInRange (KernelValue.labels m c) :=
    fun c => labels_of_pre (F := Ideal) _ _ _ _ (hpre c)
  refine ⟨fun c => result (KernelValue.probs m c) (KernelValue.labels m c) (KernelValue.mask m c) (KernelValue.rewards m c),
    KernelValue.run m ρ hlab, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2]
  exact ref_value_of_cur _ _ _ _ (fun n b t => ref_cur _ _ _ (hlab c) n b t)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
